-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000x64 : Shape := ⟨2, ![50000, 64]⟩
abbrev S50000x32 : Shape := ⟨2, ![50000, 32]⟩
abbrev S1x32 : Shape := ⟨2, ![1, 32]⟩
abbrev S128x64 : Shape := ⟨2, ![128, 64]⟩
abbrev S64 : Shape := ⟨1, ![64]⟩
abbrev S32x32 : Shape := ⟨2, ![32, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S1x32 : S_.BroadcastsInDim S1x32 (![] : Fin 0 → Fin S1x32.rank)
  reducesTo_S1x32_S_d0_1 : S1x32.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg9 : FVec F S32x32 .f32) (main_arg10 : FVec F S32 .f32) (main_arg11 : FVec F S32 .f32) (main_arg12 : FVec F S32 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg6 : FVec F S64 .f32) (main_arg7 : FVec F S64 .f32) (main_arg8 : FVec F S64 .f32) (main_arg9 : FVec F S32x32 .f32) (main_arg10 : FVec F S32 .f32) (main_arg11 : FVec F S32 .f32) (main_arg12 : FVec F S32 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : IVec S800000 32) (main_arg1 : IVec S800000 32) (main_arg2 : FVec F S50000x64 .f32) (main_arg3 : FVec F S50000x32 .f32) (main_arg4 : FVec F S1x32 .f32) (main_arg5 : FVec F S128x64 .f32) (main_arg6 : FVec F S64 .f32) (main_arg7 : FVec F S64 .f32) (main_arg8 : FVec F S64 .f32) (main_arg9 : FVec F S32x32 .f32) (main_arg10 : FVec F S32 .f32) (main_arg11 : FVec F S32 .f32) (main_arg12 : FVec F S32 .f32) : IVec S_ 1 :=
  let main_v0 : FVec F S50000x64 .f32 := Host.absf main_arg2
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x32 .f32 := Host.absf main_arg3
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S1x32 .f32 := Host.absf main_arg4
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_v13 main_v16
-- ==== Kernel.lean ====
abbrev S800000 : Shape := ⟨1, ![800000]⟩
abbrev S50000x64 : Shape := ⟨2, ![50000, 64]⟩
abbrev S50000x32 : Shape := ⟨2, ![50000, 32]⟩
abbrev S1x32 : Shape := ⟨2, ![1, 32]⟩
abbrev S128x64 : Shape := ⟨2, ![128, 64]⟩
abbrev S64 : Shape := ⟨1, ![64]⟩
abbrev S32x32 : Shape := ⟨2, ![32, 32]⟩
abbrev S32 : Shape := ⟨1, ![32]⟩
abbrev S50000x96 : Shape := ⟨2, ![50000, 96]⟩
abbrev S_ : Shape := ⟨0, ![]⟩
abbrev S800000x1 : Shape := ⟨2, ![800000, 1]⟩
abbrev S800000x96 : Shape := ⟨2, ![800000, 96]⟩
abbrev S96x64 : Shape := ⟨2, ![96, 64]⟩
abbrev S32x64 : Shape := ⟨2, ![32, 64]⟩
abbrev S1x64 : Shape := ⟨2, ![1, 64]⟩
abbrev S5000x96 : Shape := ⟨2, ![5000, 96]⟩
abbrev S5000x32 : Shape := ⟨2, ![5000, 32]⟩
abbrev S5000x64 : Shape := ⟨2, ![5000, 64]⟩
abbrev S5000 : Shape := ⟨1, ![5000]⟩
abbrev S5000x1 : Shape := ⟨2, ![5000, 1]⟩

abbrev nBuf : Space → Nat
  | .hbm => 35
  | .vmem => 16
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000x64, .f32⟩
  | .hbm, ⟨3, _⟩ => ⟨S50000x32, .f32⟩
  | .hbm, ⟨4, _⟩ => ⟨S1x32, .f32⟩
  | .hbm, ⟨5, _⟩ => ⟨S128x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S32x32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S50000x96, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x96, .f32⟩
  | .hbm, ⟨23, _⟩ => ⟨S_, .f32⟩
  | .hbm, ⟨24, _⟩ => ⟨S50000x96, .f32⟩
  | .hbm, ⟨25, _⟩ => ⟨S800000x1, .i32⟩
  | .hbm, ⟨26, _⟩ => ⟨S50000x96, .f32⟩
  | .hbm, ⟨27, _⟩ => ⟨S50000x32, .f32⟩
  | .hbm, ⟨28, _⟩ => ⟨S96x64, .f32⟩
  | .hbm, ⟨29, _⟩ => ⟨S32x64, .f32⟩
  | .hbm, ⟨30, _⟩ => ⟨S1x64, .f32⟩
  | .hbm, ⟨31, _⟩ => ⟨S64, .f32⟩
  | .hbm, ⟨32, _⟩ => ⟨S64, .f32⟩
  | .hbm, ⟨33, _⟩ => ⟨S50000x64, .f32⟩
  | .hbm, ⟨34, _⟩ => ⟨S50000x32, .f32⟩
  | .local _ .vmem, ⟨0, _⟩ => ⟨S5000x96, .f32⟩
  | .local _ .vmem, ⟨1, _⟩ => ⟨S5000x96, .f32⟩
  | .local _ .vmem, ⟨2, _⟩ => ⟨S5000x32, .f32⟩
  | .local _ .vmem, ⟨3, _⟩ => ⟨S5000x32, .f32⟩
  | .local _ .vmem, ⟨4, _⟩ => ⟨S96x64, .f32⟩
  | .local _ .vmem, ⟨5, _⟩ => ⟨S64, .f32⟩
  | .local _ .vmem, ⟨6, _⟩ => ⟨S64, .f32⟩
  | .local _ .vmem, ⟨7, _⟩ => ⟨S64, .f32⟩
  | .local _ .vmem, ⟨8, _⟩ => ⟨S32x32, .f32⟩
  | .local _ .vmem, ⟨9, _⟩ => ⟨S32, .f32⟩
  | .local _ .vmem, ⟨10, _⟩ => ⟨S32, .f32⟩
  | .local _ .vmem, ⟨11, _⟩ => ⟨S32, .f32⟩
  | .local _ .vmem, ⟨12, _⟩ => ⟨S5000x64, .f32⟩
  | .local _ .vmem, ⟨13, _⟩ => ⟨S5000x64, .f32⟩
  | .local _ .vmem, ⟨14, _⟩ => ⟨S5000x32, .f32⟩
  | .local _ .vmem, ⟨15, _⟩ => ⟨S5000x32, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5000x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  concatenates_S50000x64_S50000x32_S50000x96_d1 : Shape.Concatenates [S50000x64, S50000x32] S50000x96 1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  slices_S50000x96_S50000x32_0_64 : S50000x96.Slices ![0, 64] S50000x32
  slices_S128x64_S96x64_0_0 : S128x64.Slices ![0, 0] S96x64
  slices_S128x64_S32x64_96_0 : S128x64.Slices ![96, 0] S32x64
  shapeCasts_S1x64_S64 : S1x64.ShapeCasts S64
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x64_S96x64_0_0 : ∀ a, (![0, 0] : Fin 2 → Nat) a + S96x64.size a ≤ S96x64.size a
  h_S96x64 : 0 < S96x64.numel
  shapeCasts_S96x64_S96x64 : S96x64.ShapeCasts S96x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  reduces_S5000x32_S5000 : S5000x32.Reduces [1] S5000
  broadcasts_S5000x1_S5000x32 : S5000x1.Broadcasts S5000x32
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S1x32_S32x64_S1x64_1_0_0_1_n_n_wf : DotDims.WF S1x32 S32x64 S1x64 [1] [0] [0] [1] [] []
  dot_S5000x96_S96x64_S5000x64_1_0_0_1_n_n_wf : DotDims.WF S5000x96 S96x64 S5000x64 [1] [0] [0] [1] [] []
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S50000x32.size a
  hwx0_1 : ∀ i : grid0.Coords, EltTy.bits .f32 = 32 ∨ (Rect.block (s := S50000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x64.size a ≤ S96x64.size a
  hwx0_2 : ∀ i : grid0.Coords, EltTy.bits .f32 = 32 ∨ (Rect.block (s := S96x64) S96x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32.size a ≤ S32.size a
  hwx0_9 : ∀ i : grid0.Coords, EltTy.bits .f32 = 32 ∨ (Rect.block (s := S32) S32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S50000x64.size a
  hwx0_10 : ∀ i : grid0.Coords, EltTy.bits .f32 = 32 ∨ (Rect.block (s := S50000x64) S5000x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x32.size a ≤ S50000x32.size a
  hwx0_11 : ∀ i : grid0.Coords, EltTy.bits .f32 = 32 ∨ (Rect.block (s := S50000x32) S5000x32.size (cc0_transform_11 i) (hinb0_11 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S1x32_S32x64_S1x64_1_0_0_1_n_n : DotDims S1x32 S32x64 S1x64 where
  lhsContracting := [1]
  rhsContracting := [0]
  lhsNonContracting := [0]
  rhsNonContracting := [1]
  lhsBatch := []
  rhsBatch := []
  wf := dot_S1x32_S32x64_S1x64_1_0_0_1_n_n_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_v10) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S96x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17_0) S5000x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v17_1) S5000x32.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S800000 : Shape := ⟨1, ![800000]⟩
abbrev S50000x64 : Shape := ⟨2, ![50000, 64]⟩
abbrev S50000x32 : Shape := ⟨2, ![50000, 32]⟩
abbrev S1x32 : Shape := ⟨2, ![1, 32]⟩
abbrev S128x64 : Shape := ⟨2, ![128, 64]⟩
abbrev S64 : Shape := ⟨1, ![64]⟩
abbrev S32x32 : Shape := ⟨2, ![32, 32]⟩
abbrev S32 : Shape := ⟨1, ![32]⟩
abbrev S50000x96 : Shape := ⟨2, ![50000, 96]⟩
abbrev S_ : Shape := ⟨0, ![]⟩
abbrev S800000x1 : Shape := ⟨2, ![800000, 1]⟩
abbrev S800000x96 : Shape := ⟨2, ![800000, 96]⟩
abbrev S50000x128 : Shape := ⟨2, ![50000, 128]⟩
abbrev S1x64 : Shape := ⟨2, ![1, 64]⟩
abbrev S50000 : Shape := ⟨1, ![50000]⟩
abbrev S50000x1 : Shape := ⟨2, ![50000, 1]⟩

abbrev nBuf : Space → Nat
  | .hbm => 102
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000x64, .f32⟩
  | .hbm, ⟨3, _⟩ => ⟨S50000x32, .f32⟩
  | .hbm, ⟨4, _⟩ => ⟨S1x32, .f32⟩
  | .hbm, ⟨5, _⟩ => ⟨S128x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S32x32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S50000x96, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x96, .f32⟩
  | .hbm, ⟨23, _⟩ => ⟨S_, .f32⟩
  | .hbm, ⟨24, _⟩ => ⟨S50000x96, .f32⟩
  | .hbm, ⟨25, _⟩ => ⟨S800000x1, .i32⟩
  | .hbm, ⟨26, _⟩ => ⟨S50000x96, .f32⟩
  | .hbm, ⟨27, _⟩ => ⟨S50000x32, .f32⟩
  | .hbm, ⟨28, _⟩ => ⟨S50000x32, .f32⟩
  | .hbm, ⟨29, _⟩ => ⟨S50000x128, .f32⟩
  | .hbm, ⟨30, _⟩ => ⟨S50000x64, .f32⟩
  | .hbm, ⟨31, _⟩ => ⟨S1x64, .f32⟩
  | .hbm, ⟨32, _⟩ => ⟨S50000x64, .f32⟩
  | .hbm, ⟨33, _⟩ => ⟨S50000x64, .f32⟩
  | .hbm, ⟨34, _⟩ => ⟨S_, .f32⟩
  | .hbm, ⟨35, _⟩ => ⟨S50000x64, .f32⟩
  | .hbm, ⟨36, _⟩ => ⟨S50000x64, .f32⟩
  | .hbm, ⟨37, _⟩ => ⟨S_, .f32⟩
  | .hbm, ⟨38, _⟩ => ⟨S50000, .f32⟩
  | .hbm, ⟨39, _⟩ => ⟨S50000x1, .f32⟩
  | .hbm, ⟨40, _⟩ => ⟨S_, .f32⟩
  | .hbm, ⟨41, _⟩ => ⟨S50000x1, .f32⟩
  | .hbm, ⟨42, _⟩ => ⟨S50000x1, .f32⟩
  | .hbm, ⟨43, _⟩ => ⟨S50000x64, .f32⟩
  | .hbm, ⟨44, _⟩ => ⟨S50000x64, .f32⟩
  | .hbm, ⟨45, _⟩ => ⟨S50000x64, .f32⟩
  | .hbm, ⟨46, _⟩ => ⟨S_, .f32⟩
  | .hbm, ⟨47, _⟩ => ⟨S50000, .f32⟩
  | .hbm, ⟨48, _⟩ => ⟨S50000x1, .f32⟩
  | .hbm, ⟨49, _⟩ => ⟨S_, .f32⟩
  | .hbm, ⟨50, _⟩ => ⟨S50000x1, .f32⟩
  | .hbm, ⟨51, _⟩ => ⟨S50000x1, .f32⟩
  | .hbm, ⟨52, _⟩ => ⟨S50000x64, .f32⟩
  | .hbm, ⟨53, _⟩ => ⟨S50000x64, .f32⟩
  | .hbm, ⟨54, _⟩ => ⟨S_, .f32⟩
  | .hbm, ⟨55, _⟩ => ⟨S50000x1, .f32⟩
  | .hbm, ⟨56, _⟩ => ⟨S50000x1, .f32⟩
  | .hbm, ⟨57, _⟩ => ⟨S50000x1, .f32⟩
  | .hbm, ⟨58, _⟩ => ⟨S50000x64, .f32⟩
  | .hbm, ⟨59, _⟩ => ⟨S50000x64, .f32⟩
  | .hbm, ⟨60, _⟩ => ⟨S1x64, .f32⟩
  | .hbm, ⟨61, _⟩ => ⟨S50000x64, .f32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S50000x32, .f32⟩
  | .hbm, ⟨67, _⟩ => ⟨S1x32, .f32⟩
  | .hbm, ⟨68, _⟩ => ⟨S50000x32, .f32⟩
  | .hbm, ⟨69, _⟩ => ⟨S50000x32, .f32⟩
  | .hbm, ⟨70, _⟩ => ⟨S_, .f32⟩
  | .hbm, ⟨71, _⟩ => ⟨S50000x32, .f32⟩
  | .hbm, ⟨72, _⟩ => ⟨S50000x32, .f32⟩
  | .hbm, ⟨73, _⟩ => ⟨S_, .f32⟩
  | .hbm, ⟨74, _⟩ => ⟨S50000, .f32⟩
  | .hbm, ⟨75, _⟩ => ⟨S50000x1, .f32⟩
  | .hbm, ⟨76, _⟩ => ⟨S_, .f32⟩
  | .hbm, ⟨77, _⟩ => ⟨S50000x1, .f32⟩
  | .hbm, ⟨78, _⟩ => ⟨S50000x1, .f32⟩
  | .hbm, ⟨79, _⟩ => ⟨S50000x32, .f32⟩
  | .hbm, ⟨80, _⟩ => ⟨S50000x32, .f32⟩
  | .hbm, ⟨81, _⟩ => ⟨S50000x32, .f32⟩
  | .hbm, ⟨82, _⟩ => ⟨S_, .f32⟩
  | .hbm, ⟨83, _⟩ => ⟨S50000, .f32⟩
  | .hbm, ⟨84, _⟩ => ⟨S50000x1, .f32⟩
  | .hbm, ⟨85, _⟩ => ⟨S_, .f32⟩
  | .hbm, ⟨86, _⟩ => ⟨S50000x1, .f32⟩
  | .hbm, ⟨87, _⟩ => ⟨S50000x1, .f32⟩
  | .hbm, ⟨88, _⟩ => ⟨S50000x32, .f32⟩
  | .hbm, ⟨89, _⟩ => ⟨S50000x32, .f32⟩
  | .hbm, ⟨90, _⟩ => ⟨S_, .f32⟩
  | .hbm, ⟨91, _⟩ => ⟨S50000x1, .f32⟩
  | .hbm, ⟨92, _⟩ => ⟨S50000x1, .f32⟩
  | .hbm, ⟨93, _⟩ => ⟨S50000x1, .f32⟩
  | .hbm, ⟨94, _⟩ => ⟨S50000x32, .f32⟩
  | .hbm, ⟨95, _⟩ => ⟨S50000x32, .f32⟩
  | .hbm, ⟨96, _⟩ => ⟨S1x32, .f32⟩
  | .hbm, ⟨97, _⟩ => ⟨S50000x32, .f32⟩
  | .hbm, ⟨98, _⟩ => ⟨S50000x32, .f32⟩
  | .hbm, ⟨99, _⟩ => ⟨S1x32, .f32⟩
  | .hbm, ⟨100, _⟩ => ⟨S50000x32, .f32⟩
  | .hbm, ⟨101, _⟩ => ⟨S50000x32, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call0_cst : Ref sig .tc := ⟨.hbm, 34, rfl⟩
abbrev main_call0_v0 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_v56 : Ref sig .tc := ⟨.hbm, 84, rfl⟩
abbrev main_cst_9 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_10 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩

abbrev nD : Nat := 1
abbrev τ : Topo := Topo.v7x

variable {F : FTy → Type} [FloatOps F]

class Facts₀ : Prop where
  concatenates_S50000x64_S50000x32_S50000x96_d1 : Shape.Concatenates [S50000x64, S50000x32] S50000x96 1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  slices_S50000x96_S50000x32_0_64 : S50000x96.Slices ![0, 64] S50000x32
  bcast_S1x32_S50000x32_0_1 : S1x32.BroadcastsInDim S50000x32 (![0, 1] : Fin 2 → Fin S50000x32.rank)
  concatenates_S50000x96_S50000x32_S50000x128_d1 : Shape.Concatenates [S50000x96, S50000x32] S50000x128 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S32_S1x32_1 : S32.BroadcastsInDim S1x32 (![1] : Fin 1 → Fin S1x32.rank)
  bcast_S_S50000x32 : S_.BroadcastsInDim S50000x32 (![] : Fin 0 → Fin S50000x32.rank)
  reducesTo_S50000x32_S50000_d1 : S50000x32.ReducesTo [1] S50000
  bcast_S50000x1_S50000x32_0_1 : S50000x1.BroadcastsInDim S50000x32 (![0, 1] : Fin 2 → Fin S50000x32.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x128_S128x64_S50000x64_1_0_0_1_n_n_wf : DotDims.WF S50000x128 S128x64 S50000x64 [1] [0] [0] [1] [] []
  dot_S50000x32_S32x32_S50000x32_1_0_0_1_n_n_wf : DotDims.WF S50000x32 S32x32 S50000x32 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf

class Facts : Prop extends Facts₀ where

variable [Facts]
-- ==== Proof.LibKeepdims.lean ====
/-
  Column forms of the layout operations a `keepdims` reduction leaves behind, read at an index: a vector turned into a
  one-column matrix, and a one-column matrix broadcast along its rows. General in the extents and in the element type.
-/
import Idealize.ShloMosaic.Lib.ValueIdx
import Idealize.ShloMosaic.Lib.Pipeline.Value

namespace Cert.Lib.Keepdims

open Idealize.ShloMosaic Idealize.ShloMosaic.ValueIdx

variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.RowNorm.lean ====
/-
  LayerNorm of the rows of a matrix, after a ReLU, one entry at a time.

  For a row `x` of `d` extended reals, a divisor `dv` and an offset `eps`, the normalized row is
  `(x j - μ) · rsqrt (σ² + eps) · g j + b j` with `μ = (∑ x) / dv` and `σ² = (∑ (x - μ)²) / dv` (`lnRow`).
  Two array programs compute it row by row on `max x 0`: one written with vector operations (a lane sum kept
  as a one-column matrix and broadcast back along the rows: `normK`), one with host operations (a reduce from an
  initial zero, `broadcast_in_dim`s: `normH`). Both, read at `(n, j)`, are `lnRow` of row `n`
  (`normK_apply`, `normH_apply`), for any extents.
-/
import Idealize.ShloMosaic.PureOps.Ideal.Laws
import Idealize.ShloMosaic.Lib.ValueIdx
import Idealize.ShloMosaic.Lib.ValueLayout
import Idealize.ShloMosaic.Lib.IdealHost
import proofs.«142566_j70746701299878_1_alg».proof.Proof.LibKeepdims

noncomputable section

namespace Cert.RowNorm

open Idealize.ShloMosaic Idealize.ShloMosaic.ValueIdx

/-- The mean of a row as the programs take it: the sum over the row divided by `dv`. -/
def rowMean {d : ℕ} (dv : EReal) (x : Fin d → EReal) : EReal := Ideal.div (∑ k, x k) dv

/-- Entry `j` of the normalized row: centred, scaled by the reciprocal root of the variance plus `eps`, then by `g`, shifted by `b`. -/
def lnRow {d : ℕ} (dv eps : EReal) (x g b : Fin d → EReal) (j : Fin d) : EReal :=
  (x j - rowMean dv x) * Ideal.rsqrt (Ideal.div (∑ k, (x k - rowMean dv x) * (x k - rowMean dv x)) dv + eps) * g j + b j

/-- The vector spelling: ReLU, the lane sums as `[a]` vectors cast to `[a, 1]` and broadcast back to `[a, b]`,
    the scale and shift rows cast to `[1, b]` and broadcast down the rows. -/
def normK {a b : ℕ} (dvB epsB : BitVec 32)
    (hr : (⟨2, ![a, b]⟩ : Shape).Reduces [1] ⟨1, ![a]⟩)
    (hc : (⟨1, ![a]⟩ : Shape).ShapeCasts ⟨2, ![a, 1]⟩)
    (hb : (⟨2, ![a, 1]⟩ : Shape).Broadcasts ⟨2, ![a, b]⟩)
    (hc1 : (⟨1, ![b]⟩ : Shape).ShapeCasts ⟨2, ![1, b]⟩)
    (hb1 : (⟨2, ![1, b]⟩ : Shape).Broadcasts ⟨2, ![a, b]⟩)
    (x : FVec Ideal ⟨2, ![a, b]⟩ .f32) (g be : FVec Ideal ⟨1, ![b]⟩ .f32) : FVec Ideal ⟨2, ![a, b]⟩ .f32 :=
  have v13 : FVec Ideal ⟨2, ![a, b]⟩ .f32 := maximumf x (broadcast ⟨2, ![a, b]⟩ (Scalar.ofBits .f32 0x00000000#32))
  have v14 : FVec Ideal ⟨1, ![a]⟩ .f32 := multiReduction .add [1] ⟨1, ![a]⟩ v13 0x00000000#32 hr (.inl rfl) rfl
  have v15 : FVec Ideal ⟨2, ![a, 1]⟩ .f32 := shapeCast ⟨2, ![a, 1]⟩ v14 hc
  have v17 : FVec Ideal ⟨2, ![a, 1]⟩ .f32 := divf v15 (broadcast ⟨2, ![a, 1]⟩ (Scalar.ofBits .f32 dvB))
  have v18 : FVec Ideal ⟨2, ![a, b]⟩ .f32 := broadcastTo ⟨2, ![a, b]⟩ v17 hb
  have v19 : FVec Ideal ⟨2, ![a, b]⟩ .f32 := subf v13 v18
  have v20 : FVec Ideal ⟨2, ![a, b]⟩ .f32 := mulf v19 v19
  have v21 : FVec Ideal ⟨1, ![a]⟩ .f32 := multiReduction .add [1] ⟨1, ![a]⟩ v20 0x00000000#32 hr (.inl rfl) rfl
  have v22 : FVec Ideal ⟨2, ![a, 1]⟩ .f32 := shapeCast ⟨2, ![a, 1]⟩ v21 hc
  have v24 : FVec Ideal ⟨2, ![a, 1]⟩ .f32 := divf v22 (broadcast ⟨2, ![a, 1]⟩ (Scalar.ofBits .f32 dvB))
  have v25 : FVec Ideal ⟨2, ![a, b]⟩ .f32 := broadcastTo ⟨2, ![a, b]⟩ v17 hb
  have v26 : FVec Ideal ⟨2, ![a, b]⟩ .f32 := subf v13 v25
  have v28 : FVec Ideal ⟨2, ![a, 1]⟩ .f32 := addf v24 (broadcast ⟨2, ![a, 1]⟩ (Scalar.ofBits .f32 epsB))
  have v29 : FVec Ideal ⟨2, ![a, 1]⟩ .f32 := rsqrt v28
  have v30 : FVec Ideal ⟨2, ![a, b]⟩ .f32 := broadcastTo ⟨2, ![a, b]⟩ v29 hb
  have v31 : FVec Ideal ⟨2, ![a, b]⟩ .f32 := mulf v26 v30
  have v34 : FVec Ideal ⟨2, ![a, b]⟩ .f32 := broadcastTo ⟨2, ![a, b]⟩ (shapeCast ⟨2, ![1, b]⟩ g hc1) hb1
  have v35 : FVec Ideal ⟨2, ![a, b]⟩ .f32 := mulf v31 v34
  have v38 : FVec Ideal ⟨2, ![a, b]⟩ .f32 := broadcastTo ⟨2, ![a, b]⟩ (shapeCast ⟨2, ![1, b]⟩ be hc1) hb1
  addf v35 v38

/-- The host spelling: ReLU against a broadcast zero, `reduce`s with `add` from an initial zero, every
    re-laying a `broadcast_in_dim`. -/
def normH {a b : ℕ} (dvB epsB : BitVec 32)
    (hz : (⟨0, ![]⟩ : Shape).BroadcastsInDim ⟨2, ![a, b]⟩ (![] : Fin 0 → Fin 2))
    (hrt : (⟨2, ![a, b]⟩ : Shape).ReducesTo [1] ⟨1, ![a]⟩)
    (h0 : 0 < (⟨0, ![]⟩ : Shape).numel)
    (hcol : (⟨1, ![a]⟩ : Shape).BroadcastsInDim ⟨2, ![a, 1]⟩ (![0] : Fin 1 → Fin 2))
    (hs1 : (⟨0, ![]⟩ : Shape).BroadcastsInDim ⟨2, ![a, 1]⟩ (![] : Fin 0 → Fin 2))
    (hfull : (⟨2, ![a, 1]⟩ : Shape).BroadcastsInDim ⟨2, ![a, b]⟩ (![0, 1] : Fin 2 → Fin 2))
    (hrow : (⟨1, ![b]⟩ : Shape).BroadcastsInDim ⟨2, ![1, b]⟩ (![1] : Fin 1 → Fin 2))
    (hdown : (⟨2, ![1, b]⟩ : Shape).BroadcastsInDim ⟨2, ![a, b]⟩ (![0, 1] : Fin 2 → Fin 2))
    (x : FVec Ideal ⟨2, ![a, b]⟩ .f32) (g be : FVec Ideal ⟨1, ![b]⟩ .f32) : FVec Ideal ⟨2, ![a, b]⟩ .f32 :=
  have v18 : FVec Ideal ⟨2, ![a, b]⟩ .f32 := maximumf x (broadcastInDim ⟨2, ![a, b]⟩ ![] hz (constant (F := Ideal) ⟨0, ![]⟩ .f32 0x00000000#32))
  have v22 : FVec Ideal ⟨2, ![a, 1]⟩ .f32 :=
    Host.divf (broadcastInDim ⟨2, ![a, 1]⟩ ![0] hcol (Host.reduceAdd v18 (constant (F := Ideal) ⟨0, ![]⟩ .f32 0x00000000#32) hrt h0))
      (broadcastInDim ⟨2, ![a, 1]⟩ ![] hs1 (constant (F := Ideal) ⟨0, ![]⟩ .f32 dvB))
  have v24 : FVec Ideal ⟨2, ![a, b]⟩ .f32 := subf v18 (broadcastInDim ⟨2, ![a, b]⟩ ![0, 1] hfull v22)
  have v25 : FVec Ideal ⟨2, ![a, b]⟩ .f32 := mulf v24 v24
  have v29 : FVec Ideal ⟨2, ![a, 1]⟩ .f32 :=
    Host.divf (broadcastInDim ⟨2, ![a, 1]⟩ ![0] hcol (Host.reduceAdd v25 (constant (F := Ideal) ⟨0, ![]⟩ .f32 0x00000000#32) hrt h0))
      (broadcastInDim ⟨2, ![a, 1]⟩ ![] hs1 (constant (F := Ideal) ⟨0, ![]⟩ .f32 dvB))
  have v31 : FVec Ideal ⟨2, ![a, b]⟩ .f32 := subf v18 (broadcastInDim ⟨2, ![a, b]⟩ ![0, 1] hfull v22)
  have v33 : FVec Ideal ⟨2, ![a, 1]⟩ .f32 := addf v29 (broadcastInDim ⟨2, ![a, 1]⟩ ![] hs1 (constant (F := Ideal) ⟨0, ![]⟩ .f32 epsB))
  have v36 : FVec Ideal ⟨2, ![a, b]⟩ .f32 := mulf v31 (broadcastInDim ⟨2, ![a, b]⟩ ![0, 1] hfull (Host.rsqrt v33))
  have v39 : FVec Ideal ⟨2, ![a, b]⟩ .f32 := mulf v36 (broadcastInDim ⟨2, ![a, b]⟩ ![0, 1] hdown (broadcastInDim ⟨2, ![1, b]⟩ ![1] hrow g))
  addf v39 (broadcastInDim ⟨2, ![a, b]⟩ ![0, 1] hdown (broadcastInDim ⟨2, ![1, b]⟩ ![1] hrow be))

/-! ## The lane sum read at a row, and the scalar words -/

section Vector

variable {a b : ℕ}

/-- Over a row index `n`, the source index with column `k` inserted is `(n, k)`. -/
private theorem lift_row (hr : (⟨2, ![a, b]⟩ : Shape).Reduces [1] ⟨1, ![a]⟩) (n : Fin a) (k : Fin b) :
    hr.lift (ix1 n) k = ix2 n k := by
  funext c
  match c with
  | ⟨0, _⟩ => exact Fin.ext rfl
  | ⟨1, _⟩ => exact Fin.ext rfl

/-- The lane sum of a matrix, read at row `n`, is the sum of that row. -/
private theorem laneSum_apply (hr : (⟨2, ![a, b]⟩ : Shape).Reduces [1] ⟨1, ![a]⟩) (v : FVec Ideal ⟨2, ![a, b]⟩ .f32)
    (n : Fin a) :
    multiReduction .add ([1] : List (Fin 2)) ⟨1, ![a]⟩ v 0x00000000#32 hr (.inl rfl) rfl (ix1 n) = ∑ k : Fin b, v (ix2 n k) := by
  refine (Ideal.multiReduction_add_single v _ hr _ _ (ix1 n)).trans ?_
  exact Finset.sum_congr rfl fun k _ => congrArg v (lift_row hr n k)

/-- The reciprocal root of an array at an index is the reciprocal root of the element. -/
private theorem rsqrt_apply {s : Shape} {φ : FTy} (v : FVec Ideal s φ) (i : s.Idx) : rsqrt v i = Ideal.rsqrt (v i) := rfl

/-- A scalar word read at the ideal values. -/
private theorem scalar_ofBits (φ : FTy) (w : BitVec φ.bits) : Scalar.ofBits (F := Ideal) φ w = Ideal.ofBits φ w := rfl

end Vector

/-- The vector spelling read at `(n, j)` is the normalized row `n` of `max x 0`. -/
theorem normK_apply {a b : ℕ} (dvB epsB : BitVec 32)
    (hr : (⟨2, ![a, b]⟩ : Shape).Reduces [1] ⟨1, ![a]⟩)
    (hc : (⟨1, ![a]⟩ : Shape).ShapeCasts ⟨2, ![a, 1]⟩)
    (hb : (⟨2, ![a, 1]⟩ : Shape).Broadcasts ⟨2, ![a, b]⟩)
    (hc1 : (⟨1, ![b]⟩ : Shape).ShapeCasts ⟨2, ![1, b]⟩)
    (hb1 : (⟨2, ![1, b]⟩ : Shape).Broadcasts ⟨2, ![a, b]⟩)
    (x : FVec Ideal ⟨2, ![a, b]⟩ .f32) (g be : FVec Ideal ⟨1, ![b]⟩ .f32) (n : Fin a) (j : Fin b) :
    normK dvB epsB hr hc hb hc1 hb1 x g be (ix2 n j)
      = lnRow (Ideal.ofBits .f32 dvB) (Ideal.ofBits .f32 epsB) (fun k => max (x (ix2 n k)) 0)
          (fun k => g (ix1 k)) (fun k => be (ix1 k)) j := by
  unfold normK
  simp only [addf_apply, mulf_apply, subf_apply, divf_apply, maximumf_apply, broadcast_apply, rsqrt_apply,
    scalar_ofBits, Cert.Lib.Keepdims.broadcastTo_a1_ab_apply, Cert.Lib.Keepdims.shapeCast_a_a1_apply,
    broadcastTo_1b_ab_apply, shapeCast_a_1a_apply, laneSum_apply, Ideal.ofBits_zero_f32]
  rfl

/-! ## The host spelling's re-layings and its sum, read at an index -/

section Host

variable {a b : ℕ}

/-- A scalar broadcast to a matrix reads the scalar everywhere. -/
private theorem bcastScalar_apply {α : Type} (h : (⟨0, ![]⟩ : Shape).BroadcastsInDim ⟨2, ![a, b]⟩ (![] : Fin 0 → Fin 2))
    (w : (⟨0, ![]⟩ : Shape).Idx → α) (i : (⟨2, ![a, b]⟩ : Shape).Idx) :
    broadcastInDim ⟨2, ![a, b]⟩ (![] : Fin 0 → Fin 2) h w i = w ix0 :=
  broadcastInDim_scalar_apply h w i

/-- A vector laid out as the one column of an `[a, 1]` matrix reads, at `(n, u)`, the vector at `n`. -/
private theorem bcastCol_apply {α : Type} (h : (⟨1, ![a]⟩ : Shape).BroadcastsInDim ⟨2, ![a, 1]⟩ (![0] : Fin 1 → Fin 2))
    (w : (⟨1, ![a]⟩ : Shape).Idx → α) (n : Fin a) (u : Fin 1) :
    broadcastInDim ⟨2, ![a, 1]⟩ (![0] : Fin 1 → Fin 2) h w (ix2 n u) = w (ix1 n) := by
  refine broadcastInDim_apply _ h w (ix2 n u) (ix1 n) fun ax => ?_
  match ax with
  | ⟨0, _⟩ =>
    show n.val = if a = 1 then 0 else n.val
    split
    · have := n.isLt; omega
    · rfl

/-- A one-column matrix broadcast along its rows reads, at `(n, j)`, its column at row `n`. -/
private theorem bcastFull_apply {α : Type} (h : (⟨2, ![a, 1]⟩ : Shape).BroadcastsInDim ⟨2, ![a, b]⟩ (![0, 1] : Fin 2 → Fin 2))
    (w : (⟨2, ![a, 1]⟩ : Shape).Idx → α) (n : Fin a) (j : Fin b) :
    broadcastInDim ⟨2, ![a, b]⟩ (![0, 1] : Fin 2 → Fin 2) h w (ix2 n j) = w (ix2 n (0 : Fin 1)) := by
  refine broadcastInDim_apply _ h w (ix2 n j) (ix2 n (0 : Fin 1)) fun ax => ?_
  match ax with
  | ⟨0, _⟩ =>
    show n.val = if a = 1 then 0 else n.val
    split
    · have := n.isLt; omega
    · rfl
  | ⟨1, _⟩ => rfl

/-- A vector laid out as the one row of a `[1, b]` matrix reads, at `(u, j)`, the vector at `j`. -/
private theorem bcastRow_apply {α : Type} (h : (⟨1, ![b]⟩ : Shape).BroadcastsInDim ⟨2, ![1, b]⟩ (![1] : Fin 1 → Fin 2))
    (w : (⟨1, ![b]⟩ : Shape).Idx → α) (u : Fin 1) (j : Fin b) :
    broadcastInDim ⟨2, ![1, b]⟩ (![1] : Fin 1 → Fin 2) h w (ix2 u j) = w (ix1 j) := by
  refine broadcastInDim_apply _ h w (ix2 u j) (ix1 j) fun ax => ?_
  match ax with
  | ⟨0, _⟩ =>
    show j.val = if b = 1 then 0 else j.val
    split
    · have := j.isLt; omega
    · rfl

/-- A one-row matrix broadcast down the rows reads, at `(n, j)`, its row at column `j`. -/
private theorem bcastDown_apply {α : Type} (h : (⟨2, ![1, b]⟩ : Shape).BroadcastsInDim ⟨2, ![a, b]⟩ (![0, 1] : Fin 2 → Fin 2))
    (w : (⟨2, ![1, b]⟩ : Shape).Idx → α) (n : Fin a) (j : Fin b) :
    broadcastInDim ⟨2, ![a, b]⟩ (![0, 1] : Fin 2 → Fin 2) h w (ix2 n j) = w (ix2 (0 : Fin 1) j) := by
  refine broadcastInDim_apply _ h w (ix2 n j) (ix2 (0 : Fin 1) j) fun ax => ?_
  match ax with
  | ⟨0, _⟩ => rfl
  | ⟨1, _⟩ =>
    show j.val = if b = 1 then 0 else j.val
    split
    · have := j.isLt; omega
    · rfl

/-- The host's sum over the columns from an initial zero, read at row `n`, is the sum of that row. -/
private theorem hostSum_apply (hrt : (⟨2, ![a, b]⟩ : Shape).ReducesTo ([1] : List (Fin 2)) ⟨1, ![a]⟩)
    (h0 : 0 < (⟨0, ![]⟩ : Shape).numel) (v : FVec Ideal ⟨2, ![a, b]⟩ .f32) (n : Fin a) :
    Host.reduceAdd v (constant (F := Ideal) ⟨0, ![]⟩ .f32 0x00000000#32) hrt h0 (ix1 n) = ∑ k : Fin b, v (ix2 n k) := by
  have hr : (⟨2, ![a, b]⟩ : Shape).Reduces ([1] : List (Fin 2)) ⟨1, ![a]⟩ := ⟨hrt.1, Nat.one_pos, hrt.2⟩
  refine (Ideal.hostReduceAdd_single hrt hr v _ (ix1 n)).trans ?_
  show Ideal.ofBits .f32 0x00000000#32 + _ = _
  rw [Ideal.ofBits_zero_f32, zero_add]
  exact Finset.sum_congr rfl fun k _ => congrArg v (lift_row hr n k)

/-- The host's reciprocal root of an array at an index is the reciprocal root of the element. -/
private theorem hostRsqrt_apply {s : Shape} {φ : FTy} (v : FVec Ideal s φ) (i : s.Idx) :
    Host.rsqrt v i = Ideal.rsqrt (v i) := rfl

end Host

/-- The host spelling read at `(n, j)` is the same normalized row. -/
theorem normH_apply {a b : ℕ} (dvB epsB : BitVec 32)
    (hz : (⟨0, ![]⟩ : Shape).BroadcastsInDim ⟨2, ![a, b]⟩ (![] : Fin 0 → Fin 2))
    (hrt : (⟨2, ![a, b]⟩ : Shape).ReducesTo [1] ⟨1, ![a]⟩)
    (h0 : 0 < (⟨0, ![]⟩ : Shape).numel)
    (hcol : (⟨1, ![a]⟩ : Shape).BroadcastsInDim ⟨2, ![a, 1]⟩ (![0] : Fin 1 → Fin 2))
    (hs1 : (⟨0, ![]⟩ : Shape).BroadcastsInDim ⟨2, ![a, 1]⟩ (![] : Fin 0 → Fin 2))
    (hfull : (⟨2, ![a, 1]⟩ : Shape).BroadcastsInDim ⟨2, ![a, b]⟩ (![0, 1] : Fin 2 → Fin 2))
    (hrow : (⟨1, ![b]⟩ : Shape).BroadcastsInDim ⟨2, ![1, b]⟩ (![1] : Fin 1 → Fin 2))
    (hdown : (⟨2, ![1, b]⟩ : Shape).BroadcastsInDim ⟨2, ![a, b]⟩ (![0, 1] : Fin 2 → Fin 2))
    (x : FVec Ideal ⟨2, ![a, b]⟩ .f32) (g be : FVec Ideal ⟨1, ![b]⟩ .f32) (n : Fin a) (j : Fin b) :
    normH dvB epsB hz hrt h0 hcol hs1 hfull hrow hdown x g be (ix2 n j)
      = lnRow (Ideal.ofBits .f32 dvB) (Ideal.ofBits .f32 epsB) (fun k => max (x (ix2 n k)) 0)
          (fun k => g (ix1 k)) (fun k => be (ix1 k)) j := by
  unfold normH
  simp only [addf_apply, mulf_apply, subf_apply, maximumf_apply, hostDivf_apply, hostRsqrt_apply, constant_apply,
    bcastScalar_apply, bcastCol_apply, bcastFull_apply, bcastRow_apply, bcastDown_apply, hostSum_apply,
    Ideal.ofBits_zero_f32]
  rfl

end Cert.RowNorm

end
-- ==== Proof.Spec.lean ====
/-
  What the layer computes, entry by entry, as functions of the aggregated features and the parameters.

  X branch: row `n` of the aggregate (96 entries) against the first 96 rows of the weight, plus the one row `h_t`
  (32 entries) against the last 32 rows, plus the bias; then ReLU and the row's LayerNorm (divisor 64).
  Y branch: the last 32 entries of row `n` of the aggregate against the 32 × 32 weight, plus the bias; ReLU; LayerNorm
  (divisor 32). Two facts of finite sums over the extended reals join the two programs' spellings of the X branch:
  a sum over 128 indices is the sum over the first 96 plus the sum over the last 32, and `A + (b + C) = A + C + b`.
  Both hold in any commutative additive monoid, so no finiteness of the inputs is used.
-/
import proofs.«142566_j70746701299878_1_alg».proof.Proof.RowNorm

noncomputable section

namespace Cert.Spec

open Idealize.ShloMosaic Idealize.ShloMosaic.ValueIdx Cert.RowNorm

/-- The divisor of the X branch's means, `64.0`, and of the Y branch's, `32.0`; the offset under the root. -/
abbrev dv64 : BitVec 32 := 0x42800000#32
abbrev dv32 : BitVec 32 := 0x42000000#32
abbrev epsB : BitVec 32 := 0x3727C5AC#32

/-- Entry `(n, j)` of the X branch before the ReLU. -/
def linX (aggr : FVec Ideal ⟨2, ![50000, 96]⟩ .f32) (ht : FVec Ideal ⟨2, ![1, 32]⟩ .f32)
    (W : FVec Ideal ⟨2, ![128, 64]⟩ .f32) (bX : FVec Ideal ⟨1, ![64]⟩ .f32) (n : Fin 50000) (j : Fin 64) : EReal :=
  (∑ k : Fin 96, aggr (ix2 n k) * W (ix2 (⟨k.val, Nat.lt_of_lt_of_le k.isLt (by decide)⟩ : Fin 128) j))
    + (∑ k : Fin 32, ht (ix2 (0 : Fin 1) k) * W (ix2 (⟨96 + k.val, by have := k.isLt; omega⟩ : Fin 128) j))
    + bX (ix1 j)

/-- Entry `(n, j)` of the Y branch before the ReLU. -/
def linY (aggr : FVec Ideal ⟨2, ![50000, 96]⟩ .f32) (WY : FVec Ideal ⟨2, ![32, 32]⟩ .f32)
    (bY : FVec Ideal ⟨1, ![32]⟩ .f32) (n : Fin 50000) (j : Fin 32) : EReal :=
  (∑ k : Fin 32, aggr (ix2 n (⟨64 + k.val, by have := k.isLt; omega⟩ : Fin 96)) * WY (ix2 k j)) + bY (ix1 j)

/-- The X result: each row of `max linX 0` normalized, scaled by `g`, shifted by `be`. -/
def outX (aggr : FVec Ideal ⟨2, ![50000, 96]⟩ .f32) (ht : FVec Ideal ⟨2, ![1, 32]⟩ .f32)
    (W : FVec Ideal ⟨2, ![128, 64]⟩ .f32) (bX g be : FVec Ideal ⟨1, ![64]⟩ .f32) : FVec Ideal ⟨2, ![50000, 64]⟩ .f32 :=
  fun i => lnRow (Ideal.ofBits .f32 dv64) (Ideal.ofBits .f32 epsB) (fun k => max (linX aggr ht W bX (i 0) k) 0)
    (fun k => g (ix1 k)) (fun k => be (ix1 k)) (i 1)

/-- The Y result. -/
def outY (aggr : FVec Ideal ⟨2, ![50000, 96]⟩ .f32) (WY : FVec Ideal ⟨2, ![32, 32]⟩ .f32)
    (bY g be : FVec Ideal ⟨1, ![32]⟩ .f32) : FVec Ideal ⟨2, ![50000, 32]⟩ .f32 :=
  fun i => lnRow (Ideal.ofBits .f32 dv32) (Ideal.ofBits .f32 epsB) (fun k => max (linY aggr WY bY (i 0) k) 0)
    (fun k => g (ix1 k)) (fun k => be (ix1 k)) (i 1)

theorem outX_apply (aggr : FVec Ideal ⟨2, ![50000, 96]⟩ .f32) (ht : FVec Ideal ⟨2, ![1, 32]⟩ .f32)
    (W : FVec Ideal ⟨2, ![128, 64]⟩ .f32) (bX g be : FVec Ideal ⟨1, ![64]⟩ .f32) (n : Fin 50000) (j : Fin 64) :
    outX aggr ht W bX g be (ix2 n j)
      = lnRow (Ideal.ofBits .f32 dv64) (Ideal.ofBits .f32 epsB) (fun k => max (linX aggr ht W bX n k) 0)
          (fun k => g (ix1 k)) (fun k => be (ix1 k)) j := rfl

theorem outY_apply (aggr : FVec Ideal ⟨2, ![50000, 96]⟩ .f32) (WY : FVec Ideal ⟨2, ![32, 32]⟩ .f32)
    (bY g be : FVec Ideal ⟨1, ![32]⟩ .f32) (n : Fin 50000) (j : Fin 32) :
    outY aggr WY bY g be (ix2 n j)
      = lnRow (Ideal.ofBits .f32 dv32) (Ideal.ofBits .f32 epsB) (fun k => max (linY aggr WY bY n k) 0)
          (fun k => g (ix1 k)) (fun k => be (ix1 k)) j := rfl

/-- Two rows that agree entry by entry have the same normalized row. -/
theorem lnRow_congr {d : ℕ} (dv eps : EReal) {x y : Fin d → EReal} (h : ∀ k, x k = y k) (g b : Fin d → EReal) (j : Fin d) :
    lnRow dv eps x g b j = lnRow dv eps y g b j := by
  rw [show x = y from funext h]

/-- A sum over 128 indices: the first 96, then the last 32. -/
theorem sum_split (f : Fin 128 → EReal) :
    ∑ k : Fin 128, f k
      = (∑ k : Fin 96, f ⟨k.val, Nat.lt_of_lt_of_le k.isLt (by decide)⟩)
        + ∑ k : Fin 32, f ⟨96 + k.val, by have := k.isLt; omega⟩ :=
  Fin.sum_univ_add (a := 96) (b := 32) f

/-- The bias may be added before or after the second partial sum. -/
theorem fold_bias (A b C : EReal) : A + (b + C) = A + C + b := by
  rw [add_comm b C, add_assoc]

end Cert.Spec

end
-- ==== Proof.KernelLin.lean ====
/-
  The linear parts of the kernel's body, entry by entry, and the body's two stored values as a linear part followed by
  the row normalization.

  For each branch the body multiplies the point's block of rows by the whole weight (the casts to the narrower float
  format are the identity on the extended reals, and the product into a zero accumulator is the plain sum over the shared
  index), adds a bias row to every row, and then applies ReLU and the LayerNorm of each row in its vector spelling
  (`Cert.RowNorm.normK`). The small product `h_t · W_X[96:128]` that @main takes before the launch is read the same way.
-/
import proofs.«142566_j70746701299878_1_alg».proof.Proof.Gen.KernelIdeal.Value
import proofs.«142566_j70746701299878_1_alg».proof.Proof.Spec

noncomputable section

namespace Cert.KernelIdeal.KValue

open Cert.KernelIdeal Cert.KernelIdeal.Gen Cert.KernelIdeal.Value
open Idealize.ShloMosaic Idealize.ShloMosaic.TcCoe Idealize.SL.Sem Idealize.ShloMosaic.StableHlo
open Idealize.ShloMosaic.ValueIdx Cert.RowNorm Cert.Spec
open Idealize.ShloMosaic.Pipeline (Dat)

/-! ## The three matrix products read at an index

Each has one contracted axis: the left operand's columns against the right operand's rows. -/

theorem lhsX_0 (i : S5000x64.Idx) (q : dot_S5000x96_S96x64_S5000x64_1_0_0_1_n_n.contr.Idx) : (dot_S5000x96_S96x64_S5000x64_1_0_0_1_n_n.lhsIdx i q 0).val = (i 0).val := by
  unfold DotDims.lhsIdx
  rw [dif_neg (show ¬(0 : Fin S5000x96.rank) ∈ dot_S5000x96_S96x64_S5000x64_1_0_0_1_n_n.lhsBatch by decide), dif_pos (show (0 : Fin S5000x96.rank) ∈ dot_S5000x96_S96x64_S5000x64_1_0_0_1_n_n.lhsNonContracting by decide)]
  rfl
theorem lhsX_1 (i : S5000x64.Idx) (q : dot_S5000x96_S96x64_S5000x64_1_0_0_1_n_n.contr.Idx) : (dot_S5000x96_S96x64_S5000x64_1_0_0_1_n_n.lhsIdx i q 1).val = (q ⟨0, by decide⟩).val :=
  dot_S5000x96_S96x64_S5000x64_1_0_0_1_n_n.lhsIdx_val_of_single rfl i q
theorem rhsX_0 (i : S5000x64.Idx) (q : dot_S5000x96_S96x64_S5000x64_1_0_0_1_n_n.contr.Idx) : (dot_S5000x96_S96x64_S5000x64_1_0_0_1_n_n.rhsIdx i q 0).val = (q ⟨0, by decide⟩).val :=
  dot_S5000x96_S96x64_S5000x64_1_0_0_1_n_n.rhsIdx_val_of_single rfl i q
theorem rhsX_1 (i : S5000x64.Idx) (q : dot_S5000x96_S96x64_S5000x64_1_0_0_1_n_n.contr.Idx) : (dot_S5000x96_S96x64_S5000x64_1_0_0_1_n_n.rhsIdx i q 1).val = (i 1).val := by
  unfold DotDims.rhsIdx
  rw [dif_neg (show ¬(1 : Fin S96x64.rank) ∈ dot_S5000x96_S96x64_S5000x64_1_0_0_1_n_n.rhsBatch by decide), dif_pos (show (1 : Fin S96x64.rank) ∈ dot_S5000x96_S96x64_S5000x64_1_0_0_1_n_n.rhsNonContracting by decide)]
  rfl

/-- A [5000, 96] block times the [96, 64] weight into a zero accumulator: entry `(p, j)` is the sum over the 96 shared indices. -/
theorem mmX_apply (l : FVec Ideal S5000x96 .bf16) (r : FVec Ideal S96x64 .bf16) (p : Fin 5000) (j : Fin 64) :
    FloatOps.matmul dot_S5000x96_S96x64_S5000x64_1_0_0_1_n_n none l r (constant (F := Ideal) S5000x64 .f32 0x00000000#32) (ix2 p j)
      = ∑ k : Fin 96, l (ix2 p k) * r (ix2 k j) := by
  rw [Ideal.matmul_constant_zero_apply, ← Equiv.sum_comp (contrEquiv1 dot_S5000x96_S96x64_S5000x64_1_0_0_1_n_n 96 rfl rfl).symm]
  refine Finset.sum_congr rfl fun k _ => ?_
  have hk := contrEquiv1_symm_val dot_S5000x96_S96x64_S5000x64_1_0_0_1_n_n 96 rfl rfl k
  have el : dot_S5000x96_S96x64_S5000x64_1_0_0_1_n_n.lhsIdx (ix2 p j) ((contrEquiv1 dot_S5000x96_S96x64_S5000x64_1_0_0_1_n_n 96 rfl rfl).symm k) = ix2 p k := funext fun a => Fin.ext (by
    match a with
    | ⟨0, _⟩ => exact lhsX_0 _ _
    | ⟨1, _⟩ => exact (lhsX_1 _ _).trans hk)
  have er : dot_S5000x96_S96x64_S5000x64_1_0_0_1_n_n.rhsIdx (ix2 p j) ((contrEquiv1 dot_S5000x96_S96x64_S5000x64_1_0_0_1_n_n 96 rfl rfl).symm k) = ix2 k j := funext fun a => Fin.ext (by
    match a with
    | ⟨0, _⟩ => exact (rhsX_0 _ _).trans hk
    | ⟨1, _⟩ => exact rhsX_1 _ _)
  rw [el, er]

theorem lhsY_0 (i : S5000x32.Idx) (q : dot_S5000x32_S32x32_S5000x32_1_0_0_1_n_n.contr.Idx) : (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem lhsY_1 (i : S5000x32.Idx) (q : dot_S5000x32_S32x32_S5000x32_1_0_0_1_n_n.contr.Idx) : (dot_S5000x32_S32x32_S5000x32_1_0_0_1_n_n.lhsIdx i q 1).val = (q ⟨0, by decide⟩).val :=
  dot_S5000x32_S32x32_S5000x32_1_0_0_1_n_n.lhsIdx_val_of_single rfl i q
theorem rhsY_0 (i : S5000x32.Idx) (q : dot_S5000x32_S32x32_S5000x32_1_0_0_1_n_n.contr.Idx) : (dot_S5000x32_S32x32_S5000x32_1_0_0_1_n_n.rhsIdx i q 0).val = (q ⟨0, by decide⟩).val :=
  dot_S5000x32_S32x32_S5000x32_1_0_0_1_n_n.rhsIdx_val_of_single rfl i q
theorem rhsY_1 (i : S5000x32.Idx) (q : dot_S5000x32_S32x32_S5000x32_1_0_0_1_n_n.contr.Idx) : (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- A [5000, 32] block times the [32, 32] weight into a zero accumulator. -/
theorem mmY_apply (l : FVec Ideal S5000x32 .bf16) (r : FVec Ideal S32x32 .bf16) (p : Fin 5000) (j : Fin 32) :
    FloatOps.matmul dot_S5000x32_S32x32_S5000x32_1_0_0_1_n_n none l r (constant (F := Ideal) S5000x32 .f32 0x00000000#32) (ix2 p j)
      = ∑ k : Fin 32, l (ix2 p k) * r (ix2 k j) := by
  rw [Ideal.matmul_constant_zero_apply, ← Equiv.sum_comp (contrEquiv1 dot_S5000x32_S32x32_S5000x32_1_0_0_1_n_n 32 rfl rfl).symm]
  refine Finset.sum_congr rfl fun k _ => ?_
  have hk := contrEquiv1_symm_val dot_S5000x32_S32x32_S5000x32_1_0_0_1_n_n 32 rfl rfl k
  have el : dot_S5000x32_S32x32_S5000x32_1_0_0_1_n_n.lhsIdx (ix2 p j) ((contrEquiv1 dot_S5000x32_S32x32_S5000x32_1_0_0_1_n_n 32 rfl rfl).symm k) = ix2 p k := funext fun a => Fin.ext (by
    match a with
    | ⟨0, _⟩ => exact lhsY_0 _ _
    | ⟨1, _⟩ => exact (lhsY_1 _ _).trans hk)
  have er : dot_S5000x32_S32x32_S5000x32_1_0_0_1_n_n.rhsIdx (ix2 p j) ((contrEquiv1 dot_S5000x32_S32x32_S5000x32_1_0_0_1_n_n 32 rfl rfl).symm k) = ix2 k j := funext fun a => Fin.ext (by
    match a with
    | ⟨0, _⟩ => exact (rhsY_0 _ _).trans hk
    | ⟨1, _⟩ => exact rhsY_1 _ _)
  rw [el, er]

theorem lhsT_0 (i : S1x64.Idx) (q : dot_S1x32_S32x64_S1x64_1_0_0_1_n_n.contr.Idx) : (dot_S1x32_S32x64_S1x64_1_0_0_1_n_n.lhsIdx i q 0).val = (i 0).val := by
  unfold DotDims.lhsIdx
  rw [dif_neg (show ¬(0 : Fin S1x32.rank) ∈ dot_S1x32_S32x64_S1x64_1_0_0_1_n_n.lhsBatch by decide), dif_pos (show (0 : Fin S1x32.rank) ∈ dot_S1x32_S32x64_S1x64_1_0_0_1_n_n.lhsNonContracting by decide)]
  rfl
theorem lhsT_1 (i : S1x64.Idx) (q : dot_S1x32_S32x64_S1x64_1_0_0_1_n_n.contr.Idx) : (dot_S1x32_S32x64_S1x64_1_0_0_1_n_n.lhsIdx i q 1).val = (q ⟨0, by decide⟩).val :=
  dot_S1x32_S32x64_S1x64_1_0_0_1_n_n.lhsIdx_val_of_single rfl i q
theorem rhsT_0 (i : S1x64.Idx) (q : dot_S1x32_S32x64_S1x64_1_0_0_1_n_n.contr.Idx) : (dot_S1x32_S32x64_S1x64_1_0_0_1_n_n.rhsIdx i q 0).val = (q ⟨0, by decide⟩).val :=
  dot_S1x32_S32x64_S1x64_1_0_0_1_n_n.rhsIdx_val_of_single rfl i q
theorem rhsT_1 (i : S1x64.Idx) (q : dot_S1x32_S32x64_S1x64_1_0_0_1_n_n.contr.Idx) : (dot_S1x32_S32x64_S1x64_1_0_0_1_n_n.rhsIdx i q 1).val = (i 1).val := by
  unfold DotDims.rhsIdx
  rw [dif_neg (show ¬(1 : Fin S32x64.rank) ∈ dot_S1x32_S32x64_S1x64_1_0_0_1_n_n.rhsBatch by decide), dif_pos (show (1 : Fin S32x64.rank) ∈ dot_S1x32_S32x64_S1x64_1_0_0_1_n_n.rhsNonContracting by decide)]
  rfl

/-- The one row `h_t` times a [32, 64] matrix, on the host: entry `(u, j)` is the sum over the 32 shared indices. -/
theorem dotT_apply (l : FVec Ideal S1x32 .f32) (r : FVec Ideal S32x64 .f32) (u : Fin 1) (j : Fin 64) :
    Host.dotGeneral dot_S1x32_S32x64_S1x64_1_0_0_1_n_n none l r (ix2 u j) = ∑ k : Fin 32, l (ix2 u k) * r (ix2 k j) := by
  simp only [Host.dotGeneral]
  rw [Ideal.dotGeneral_apply, ← Equiv.sum_comp (contrEquiv1 dot_S1x32_S32x64_S1x64_1_0_0_1_n_n 32 rfl rfl).symm]
  refine Finset.sum_congr rfl fun k _ => ?_
  have hk := contrEquiv1_symm_val dot_S1x32_S32x64_S1x64_1_0_0_1_n_n 32 rfl rfl k
  have el : dot_S1x32_S32x64_S1x64_1_0_0_1_n_n.lhsIdx (ix2 u j) ((contrEquiv1 dot_S1x32_S32x64_S1x64_1_0_0_1_n_n 32 rfl rfl).symm k) = ix2 u k := funext fun a => Fin.ext (by
    match a with
    | ⟨0, _⟩ => exact lhsT_0 _ _
    | ⟨1, _⟩ => exact (lhsT_1 _ _).trans hk)
  have er : dot_S1x32_S32x64_S1x64_1_0_0_1_n_n.rhsIdx (ix2 u j) ((contrEquiv1 dot_S1x32_S32x64_S1x64_1_0_0_1_n_n 32 rfl rfl).symm k) = ix2 k j := funext fun a => Fin.ext (by
    match a with
    | ⟨0, _⟩ => exact (rhsT_0 _ _).trans hk
    | ⟨1, _⟩ => exact rhsT_1 _ _)
  rw [el, er]

/-! ## The body's two stored values: a linear part, then the row normalization -/

/-- The X branch's linear part on one block: the block times the weight, plus the bias row on every row. -/
def linK (x : FVec Ideal S5000x96 .f32) (w : FVec Ideal S96x64 .f32) (b : FVec Ideal S64 .f32) : FVec Ideal S5000x64 .f32 :=
  addf (matmul dot_S5000x96_S96x64_S5000x64_1_0_0_1_n_n none (truncf .bf16 (shapeCast S5000x96 x shapeCasts_S5000x96_S5000x96) bitsLt_bf16_f32)
      (truncf .bf16 (shapeCast S96x64 w shapeCasts_S96x64_S96x64) bitsLt_bf16_f32) (constant S5000x64 .f32 0x00000000#32))
    (broadcastTo S5000x64 (shapeCast S1x64 (shapeCast S64 b shapeCasts_S64_S64) shapeCasts_S64_S1x64) broadcasts_S1x64_S5000x64)

/-- The Y branch's linear part on one block. -/
def linKY (x : FVec Ideal S5000x32 .f32) (w : FVec Ideal S32x32 .f32) (b : FVec Ideal S32 .f32) : FVec Ideal S5000x32 .f32 :=
  addf (matmul dot_S5000x32_S32x32_S5000x32_1_0_0_1_n_n none (truncf .bf16 (shapeCast S5000x32 x shapeCasts_S5000x32_S5000x32) bitsLt_bf16_f32)
      (truncf .bf16 w bitsLt_bf16_f32) (constant S5000x32 .f32 0x00000000#32))
    (broadcastTo S5000x32 (shapeCast S1x32 b shapeCasts_S32_S1x32) broadcasts_S1x32_S5000x32)

/-- The value stored to the X output's buffer is the vector spelling of the normalization, applied to the linear part. -/
theorem payX_eq (v0 : FVec Ideal S5000x96 .f32) (v3 : FVec Ideal S96x64 .f32) (v7 v32 v36 : FVec Ideal S64 .f32) :
    k0_pay2 (F := Ideal) v0 v3 v7 v32 v36
      = normK (a := 5000) (b := 64) dv64 epsB reduces_S5000x64_S5000 shapeCasts_S5000_S5000x1 broadcasts_S5000x1_S5000x64
          shapeCasts_S64_S1x64 broadcasts_S1x64_S5000x64 (linK v0 v3 v7) v32 v36 := rfl

/-- The value stored to the Y output's buffer likewise. -/
theorem payY_eq (v41 : FVec Ideal S5000x32 .f32) (v44 : FVec Ideal S32x32 .f32) (v47 v71 v75 : FVec Ideal S32 .f32) :
    k0_pay1 (F := Ideal) v41 v44 v47 v71 v75
      = normK (a := 5000) (b := 32) dv32 epsB reduces_S5000x32_S5000 shapeCasts_S5000_S5000x1 broadcasts_S5000x1_S5000x32
          shapeCasts_S32_S1x32 broadcasts_S1x32_S5000x32 (linKY v41 v44 v47) v71 v75 := rfl

/-- Entry `(p, j)` of the X linear part: row `p` of the block against column `j` of the weight, plus the bias at `j`
    (the casts to the narrower format are the identity on the extended reals). -/
theorem linK_apply (x : FVec Ideal S5000x96 .f32) (w : FVec Ideal S96x64 .f32) (b : FVec Ideal S64 .f32) (p : Fin 5000) (j : Fin 64) :
    linK x w b (ix2 p j) = (∑ k : Fin 96, x (ix2 p k) * w (ix2 k j)) + b (ix1 j) := by
  unfold linK
  refine (addf_apply _ _ _).trans ?_
  refine congrArg₂ (· + ·) ?_ ?_
  · refine (mmX_apply _ _ p j).trans ?_
    refine Finset.sum_congr rfl fun k _ => ?_
    show (shapeCast S5000x96 x shapeCasts_S5000x96_S5000x96) (ix2 p k) * (shapeCast S96x64 w shapeCasts_S96x64_S96x64) (ix2 k j) = _
    rw [shapeCast_self, shapeCast_self]
  · refine (broadcastTo_1b_ab_apply _ _ p j).trans ?_
    refine (shapeCast_a_1a_apply _ _ 0 j).trans ?_
    rw [shapeCast_self]

/-- Entry `(p, j)` of the Y linear part. -/
theorem linKY_apply (x : FVec Ideal S5000x32 .f32) (w : FVec Ideal S32x32 .f32) (b : FVec Ideal S32 .f32) (p : Fin 5000) (j : Fin 32) :
    linKY x w b (ix2 p j) = (∑ k : Fin 32, x (ix2 p k) * w (ix2 k j)) + b (ix1 j) := by
  unfold linKY
  refine (addf_apply _ _ _).trans ?_
  refine congrArg₂ (· + ·) ?_ ?_
  · refine (mmY_apply _ _ p j).trans ?_
    refine Finset.sum_congr rfl fun k _ => ?_
    show (shapeCast S5000x32 x shapeCasts_S5000x32_S5000x32) (ix2 p k) * w (ix2 k j) = _
    rw [shapeCast_self]
  · refine (broadcastTo_1b_ab_apply _ _ p j).trans ?_
    exact shapeCast_a_1a_apply _ _ 0 j

end Cert.KernelIdeal.KValue

end
-- ==== Proof.Operands.lean ====
/-
  The operands of the launch that @main computes before it, as functions of the argument arrays.

  The first operand is the aggregate (a gather and a scatter-add of `[h_X | h_Y]`; its entries are never opened); the
  second its columns 64 to 95; the third the weight's rows 0 to 95; the fourth the bias plus the row `h_t` times the
  weight's rows 96 to 127, as a vector of 64 entries.
-/
import proofs.«142566_j70746701299878_1_alg».proof.Proof.Gen.KernelIdeal.Frame
import Idealize.ShloMosaic.Lib.StableHlo.Run
import Idealize.ShloMosaic.PureOps.Ideal

noncomputable section

namespace Cert.KernelIdeal.KValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The aggregate as @main computes it: the rows of `[h_X | h_Y]` the column indices name (a negative index counted from
    the end), added into the rows the row indices name. Its entries are never opened here. -/
def aggrK (x0 x1 : (⟨S800000, .i32⟩ : BufTy).Contents (Elt Ideal)) (x2 : (⟨S50000x64, .f32⟩ : BufTy).Contents (Elt Ideal))
    (x3 : (⟨S50000x32, .f32⟩ : BufTy).Contents (Elt Ideal)) : FVec Ideal S50000x96 .f32 :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 x0)
    (Host.gather gather_S50000x96_S800000x1_S800000x96_1_0_n_n_0_1_196
      (concatenate S50000x96 1 [⟨S50000x64, x2⟩, ⟨S50000x32, x3⟩] concatenates_S50000x64_S50000x32_S50000x96_d1)
      (broadcastInDim S800000x1 ![0] bcast_S800000_S800000x1_0
        (select (cmpi .slt x1 (broadcastInDim S800000 ![] bcast_S_S800000 (constantI S_ 32 0#32)))
          (addi x1 (broadcastInDim S800000 ![] bcast_S_S800000 (constantI S_ 32 50000#32))) x1)))

/-- The argument arrays and the aggregate as the launch finds them, at their literal types. -/
abbrev a0 (c : Dev nD) : (⟨S800000, .i32⟩ : BufTy).Contents (Elt Ideal) := m ((c : Thread nD τ).loc main_arg0)
abbrev a1 (c : Dev nD) : (⟨S800000, .i32⟩ : BufTy).Contents (Elt Ideal) := m ((c : Thread nD τ).loc main_arg1)
abbrev a2 (c : Dev nD) : FVec Ideal S50000x64 .f32 := m ((c : Thread nD τ).loc main_arg2)
abbrev a3 (c : Dev nD) : FVec Ideal S50000x32 .f32 := m ((c : Thread nD τ).loc main_arg3)
abbrev a4 (c : Dev nD) : FVec Ideal S1x32 .f32 := m ((c : Thread nD τ).loc main_arg4)
abbrev a5 (c : Dev nD) : FVec Ideal S128x64 .f32 := m ((c : Thread nD τ).loc main_arg5)
abbrev a6 (c : Dev nD) : FVec Ideal S64 .f32 := m ((c : Thread nD τ).loc main_arg6)
abbrev a7 (c : Dev nD) : FVec Ideal S64 .f32 := m ((c : Thread nD τ).loc main_arg7)
abbrev a8 (c : Dev nD) : FVec Ideal S64 .f32 := m ((c : Thread nD τ).loc main_arg8)
abbrev a9 (c : Dev nD) : FVec Ideal S32x32 .f32 := m ((c : Thread nD τ).loc main_arg9)
abbrev a10 (c : Dev nD) : FVec Ideal S32 .f32 := m ((c : Thread nD τ).loc main_arg10)
abbrev a11 (c : Dev nD) : FVec Ideal S32 .f32 := m ((c : Thread nD τ).loc main_arg11)
abbrev a12 (c : Dev nD) : FVec Ideal S32 .f32 := m ((c : Thread nD τ).loc main_arg12)
abbrev arrA (c : Dev nD) : FVec Ideal S50000x96 .f32 := V m c main_v10

theorem arrA_eq (c : Dev nD) : arrA m c = aggrK (a0 m c) (a1 m c) (a2 m c) (a3 m c) := by
  show (V m c main_v10 : S50000x96.Idx → EReal) = _
  dsimp only [Gen.V, Gen.hostOps0]; after_results; rfl

/-- The second operand is the aggregate's columns 64 to 95. -/
theorem V11_eq (c : Dev nD) : (V m c main_v11 : S50000x32.Idx → EReal)
    = extractStridedSlice S50000x32 ![0, 64] (aggrK (a0 m c) (a1 m c) (a2 m c) (a3 m c)) slices_S50000x96_S50000x32_0_64 := by
  dsimp only [Gen.V, Gen.hostOps0]; after_results; rfl

/-- The third operand is the weight's rows 0 to 95. -/
theorem V12_eq (c : Dev nD) : (V m c main_v12 : S96x64.Idx → EReal)
    = extractStridedSlice S96x64 ![0, 0] (a5 m c) slices_S128x64_S96x64_0_0 := by
  dsimp only [Gen.V, Gen.hostOps0]; after_results

/-- The fourth operand is the bias plus the row `h_t` times the weight's rows 96 to 127, reshaped to a vector. -/
theorem V16_eq (c : Dev nD) : (V m c main_v16 : S64.Idx → EReal)
    = addf (a6 m c) (shapeCast S64 (Host.dotGeneral dot_S1x32_S32x64_S1x64_1_0_0_1_n_n none (a4 m c)
        (extractStridedSlice S32x64 ![96, 0] (a5 m c) slices_S128x64_S32x64_96_0)) shapeCasts_S1x64_S64) := by
  dsimp only [Gen.V, Gen.hostOps0]; after_results; rfl

end Cert.KernelIdeal.KValue

end
-- ==== Proof.Blocks.lean ====
/-
  The windows' blocks at a grid point, entry by entry, as entries of the argument arrays and of the aggregate.

  A point handles 5000 consecutive rows: row `p` of point `t`'s block of the aggregate (and of its last 32 columns) is row
  `5000·t + p` of the array. Every other operand is one block, the same at every point: the weight's first 96 rows, the
  folded bias `b_X + h_t · W_X[96:128]`, the scales and shifts, the Y weight and bias.
-/
import proofs.«142566_j70746701299878_1_alg».proof.Proof.KernelLin
import proofs.«142566_j70746701299878_1_alg».proof.Proof.Operands

noncomputable section

namespace Cert.KernelIdeal.KValue

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ)

theorem V11_at (c : Dev nD) (n : Fin 50000) (q : Fin 32) :
    (V m c main_v11 : S50000x32.Idx → EReal) (ix2 n q) = arrA m c (ix2 n (⟨64 + q.val, by have := q.isLt; omega⟩ : Fin 96)) := by
  refine (congrFun (V11_eq m c) (ix2 n q)).trans ?_
  rw [arrA_eq]
  exact slice2_axis1_apply 64 _ _ n q _ rfl

theorem V12_at (c : Dev nD) (q : Fin 96) (k : Fin 64) :
    (V m c main_v12 : S96x64.Idx → EReal) (ix2 q k) = a5 m c (ix2 (⟨q.val, Nat.lt_of_lt_of_le q.isLt (by decide)⟩ : Fin 128) k) := by
  refine (congrFun (V12_eq m c) (ix2 q k)).trans ?_
  exact slice2_axis0_apply 0 _ _ q k _ (Nat.zero_add _).symm

theorem V16_at (c : Dev nD) (k : Fin 64) :
    (V m c main_v16 : S64.Idx → EReal) (ix1 k)
      = a6 m c (ix1 k) + ∑ r : Fin 32, a4 m c (ix2 (0 : Fin 1) r) * a5 m c (ix2 (⟨96 + r.val, by have := r.isLt; omega⟩ : Fin 128) k) := by
  refine (congrFun (V16_eq m c) (ix1 k)).trans ?_
  refine (addf_apply _ _ _).trans (congrArg (a6 m c (ix1 k) + ·) ?_)
  refine (shapeCast_1a_a_apply _ _ k).trans ?_
  refine (dotT_apply _ _ 0 k).trans (Finset.sum_congr rfl fun r _ => congrArg (a4 m c (ix2 (0 : Fin 1) r) * ·) ?_)
  exact slice2_axis0_apply 96 _ _ r k _ rfl

/-! ## The windows' blocks at a point -/

theorem hz2 : (![0, 0] : Fin 2 → Nat) = fun _ => 0 := funext fun a => by fin_cases a <;> rfl
theorem hz1 : (![0] : Fin 1 → Nat) = fun _ => 0 := funext fun a => by fin_cases a <;> rfl

theorem t_lt (t : Fin cfg0.N) : t.val < 10 := lt_of_lt_of_eq t.isLt N_0

/-- Row `p` of point `t`'s block is row `5000·t + p` of the array. -/
def rowOf (t : Fin cfg0.N) (p : Fin 5000) : Fin 50000 := ⟨5000 * t.val + p.val, by have := t_lt t; have := p.isLt; omega⟩

/-- The printed index maps, decided over the ten points: the row-blocked windows move with the point, the others stay. -/
theorem idxRows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)
theorem idxWhole : ∀ t : Fin cfg0.N,
    win0_2.index t (0 : Fin 2) = 0 ∧ win0_2.index t (1 : Fin 2) = 0
    ∧ win0_3.index t (0 : Fin 1) = 0 ∧ win0_4.index t (0 : Fin 1) = 0 ∧ win0_5.index t (0 : Fin 1) = 0
    ∧ win0_6.index t (0 : Fin 2) = 0 ∧ win0_6.index t (1 : Fin 2) = 0
    ∧ win0_7.index t (0 : Fin 1) = 0 ∧ win0_8.index t (0 : Fin 1) = 0 ∧ win0_9.index t (0 : Fin 1) = 0 :=
  (by decide +kernel : ∀ t : Fin grid0.N, _)

/-! ### Reading a window's block of ANY array: where its entries sit in the array -/

/-- Point `t`'s block of a [50000, 96] array: row `p` is the array's row `5000·t + p`. -/
theorem read0 (A : FVec Ideal S50000x96 .f32) (t : Fin cfg0.N) (p : Fin 5000) (q : Fin 96) :
    ((cfg0.win 0).blk t).view.read (Elt Ideal) A (ix2 p q) = A (ix2 (rowOf t p) q) := by
  obtain ⟨e0, e1, -⟩ := idxRows t
  show A (((cfg0.win 0).blk t).view.emb (ix2 p q)) = _
  refine congrArg A (funext fun a => Fin.ext ?_)
  match a with
  | ⟨0, _⟩ => show win0_0.index t (0 : Fin 2) * 5000 + 1 * p.val = 5000 * t.val + p.val; omega
  | ⟨1, _⟩ => show win0_0.index t (1 : Fin 2) * 96 + 1 * q.val = q.val; omega

/-- Point `t`'s block of a [50000, 32] array likewise. -/
theorem read1 (A : FVec Ideal S50000x32 .f32) (t : Fin cfg0.N) (p : Fin 5000) (q : Fin 32) :
    ((cfg0.win 1).blk t).view.read (Elt Ideal) A (ix2 p q) = A (ix2 (rowOf t p) q) := by
  obtain ⟨-, -, e0, e1, -⟩ := idxRows t
  show A (((cfg0.win 1).blk t).view.emb (ix2 p q)) = _
  refine congrArg A (funext fun a => Fin.ext ?_)
  match a with
  | ⟨0, _⟩ => show win0_1.index t (0 : Fin 2) * 5000 + 1 * p.val = 5000 * t.val + p.val; omega
  | ⟨1, _⟩ => show win0_1.index t (1 : Fin 2) * 32 + 1 * q.val = q.val; omega

/-- The windows whose one block is their whole array read the array itself, at every point. -/
theorem read2 (A : FVec Ideal S96x64 .f32) (t : Fin cfg0.N) (q : Fin 96) (k : Fin 64) :
    ((cfg0.win 2).blk t).view.read (Elt Ideal) A (ix2 q k) = A (ix2 q k) := by
  obtain ⟨e0, e1, -⟩ := idxWhole t
  show A (((cfg0.win 2).blk t).view.emb (ix2 q k)) = _
  refine congrArg A (funext fun a => Fin.ext ?_)
  match a with
  | ⟨0, _⟩ => show win0_2.index t (0 : Fin 2) * 96 + 1 * q.val = q.val; omega
  | ⟨1, _⟩ => show win0_2.index t (1 : Fin 2) * 64 + 1 * k.val = k.val; omega

theorem read3 (A : FVec Ideal S64 .f32) (t : Fin cfg0.N) (k : Fin 64) :
    ((cfg0.win 3).blk t).view.read (Elt Ideal) A (ix1 k) = A (ix1 k) := by
  obtain ⟨-, -, e0, -⟩ := idxWhole t
  show A (((cfg0.win 3).blk t).view.emb (ix1 k)) = _
  refine congrArg A (funext fun a => Fin.ext ?_)
  match a with
  | ⟨0, _⟩ => show win0_3.index t (0 : Fin 1) * 64 + 1 * k.val = k.val; omega

theorem read4 (A : FVec Ideal S64 .f32) (t : Fin cfg0.N) (k : Fin 64) :
    ((cfg0.win 4).blk t).view.read (Elt Ideal) A (ix1 k) = A (ix1 k) := by
  obtain ⟨-, -, -, e0, -⟩ := idxWhole t
  show A (((cfg0.win 4).blk t).view.emb (ix1 k)) = _
  refine congrArg A (funext fun a => Fin.ext ?_)
  match a with
  | ⟨0, _⟩ => show win0_4.index t (0 : Fin 1) * 64 + 1 * k.val = k.val; omega

theorem read5 (A : FVec Ideal S64 .f32) (t : Fin cfg0.N) (k : Fin 64) :
    ((cfg0.win 5).blk t).view.read (Elt Ideal) A (ix1 k) = A (ix1 k) := by
  obtain ⟨-, -, -, -, e0, -⟩ := idxWhole t
  show A (((cfg0.win 5).blk t).view.emb (ix1 k)) = _
  refine congrArg A (funext fun a => Fin.ext ?_)
  match a with
  | ⟨0, _⟩ => show win0_5.index t (0 : Fin 1) * 64 + 1 * k.val = k.val; omega

theorem read6 (A : FVec Ideal S32x32 .f32) (t : Fin cfg0.N) (q k : Fin 32) :
    ((cfg0.win 6).blk t).view.read (Elt Ideal) A (ix2 q k) = A (ix2 q k) := by
  obtain ⟨-, -, -, -, -, e0, e1, -⟩ := idxWhole t
  show A (((cfg0.win 6).blk t).view.emb (ix2 q k)) = _
  refine congrArg A (funext fun a => Fin.ext ?_)
  match a with
  | ⟨0, _⟩ => show win0_6.index t (0 : Fin 2) * 32 + 1 * q.val = q.val; omega
  | ⟨1, _⟩ => show win0_6.index t (1 : Fin 2) * 32 + 1 * k.val = k.val; omega

theorem read7 (A : FVec Ideal S32 .f32) (t : Fin cfg0.N) (k : Fin 32) :
    ((cfg0.win 7).blk t).view.read (Elt Ideal) A (ix1 k) = A (ix1 k) := by
  obtain ⟨-, -, -, -, -, -, -, e0, -⟩ := idxWhole t
  show A (((cfg0.win 7).blk t).view.emb (ix1 k)) = _
  refine congrArg A (funext fun a => Fin.ext ?_)
  match a with
  | ⟨0, _⟩ => show win0_7.index t (0 : Fin 1) * 32 + 1 * k.val = k.val; omega

theorem read8 (A : FVec Ideal S32 .f32) (t : Fin cfg0.N) (k : Fin 32) :
    ((cfg0.win 8).blk t).view.read (Elt Ideal) A (ix1 k) = A (ix1 k) := by
  obtain ⟨-, -, -, -, -, -, -, -, e0, -⟩ := idxWhole t
  show A (((cfg0.win 8).blk t).view.emb (ix1 k)) = _
  refine congrArg A (funext fun a => Fin.ext ?_)
  match a with
  | ⟨0, _⟩ => show win0_8.index t (0 : Fin 1) * 32 + 1 * k.val = k.val; omega

theorem read9 (A : FVec Ideal S32 .f32) (t : Fin cfg0.N) (k : Fin 32) :
    ((cfg0.win 9).blk t).view.read (Elt Ideal) A (ix1 k) = A (ix1 k) := by
  obtain ⟨-, -, -, -, -, -, -, -, -, e0⟩ := idxWhole t
  show A (((cfg0.win 9).blk t).view.emb (ix1 k)) = _
  refine congrArg A (funext fun a => Fin.ext ?_)
  match a with
  | ⟨0, _⟩ => show win0_9.index t (0 : Fin 1) * 32 + 1 * k.val = k.val; omega

/-! ### The ten input blocks at a point -/

abbrev blk0 (c : Dev nD) (t : Fin cfg0.N) : FVec Ideal S5000x96 .f32 := iblk m c 0 t
abbrev blk1 (c : Dev nD) (t : Fin cfg0.N) : FVec Ideal S5000x32 .f32 := iblk m c 1 t
abbrev blk2 (c : Dev nD) (t : Fin cfg0.N) : FVec Ideal S96x64 .f32 := iblk m c 2 t
abbrev blk3 (c : Dev nD) (t : Fin cfg0.N) : FVec Ideal S64 .f32 := iblk m c 3 t
abbrev blk4 (c : Dev nD) (t : Fin cfg0.N) : FVec Ideal S64 .f32 := iblk m c 4 t
abbrev blk5 (c : Dev nD) (t : Fin cfg0.N) : FVec Ideal S64 .f32 := iblk m c 5 t
abbrev blk6 (c : Dev nD) (t : Fin cfg0.N) : FVec Ideal S32x32 .f32 := iblk m c 6 t
abbrev blk7 (c : Dev nD) (t : Fin cfg0.N) : FVec Ideal S32 .f32 := iblk m c 7 t
abbrev blk8 (c : Dev nD) (t : Fin cfg0.N) : FVec Ideal S32 .f32 := iblk m c 8 t
abbrev blk9 (c : Dev nD) (t : Fin cfg0.N) : FVec Ideal S32 .f32 := iblk m c 9 t

/-- Row `p` of point `t`'s block of the aggregate. -/
theorem blk0_apply (c : Dev nD) (t : Fin cfg0.N) (p : Fin 5000) (q : Fin 96) :
    blk0 m c t (ix2 p q) = arrA m c (ix2 (rowOf t p) q) :=
  read0 (arrA m c) t p q

/-- Row `p` of point `t`'s block of the aggregate's last 32 columns. -/
theorem blk1_apply (c : Dev nD) (t : Fin cfg0.N) (p : Fin 5000) (q : Fin 32) :
    blk1 m c t (ix2 p q) = arrA m c (ix2 (rowOf t p) (⟨64 + q.val, by have := q.isLt; omega⟩ : Fin 96)) :=
  (read1 (V m c main_v11 : S50000x32.Idx → EReal) t p q).trans (V11_at m c (rowOf t p) q)

/-- The weight block is the weight's first 96 rows. -/
theorem blk2_apply (c : Dev nD) (t : Fin cfg0.N) (q : Fin 96) (k : Fin 64) :
    blk2 m c t (ix2 q k) = a5 m c (ix2 (⟨q.val, Nat.lt_of_lt_of_le q.isLt (by decide)⟩ : Fin 128) k) :=
  (read2 (V m c main_v12 : S96x64.Idx → EReal) t q k).trans (V12_at m c q k)

/-- The bias block is `b_X` plus the row `h_t` against the weight's last 32 rows. -/
theorem blk3_apply (c : Dev nD) (t : Fin cfg0.N) (k : Fin 64) :
    blk3 m c t (ix1 k)
      = a6 m c (ix1 k) + ∑ r : Fin 32, a4 m c (ix2 (0 : Fin 1) r) * a5 m c (ix2 (⟨96 + r.val, by have := r.isLt; omega⟩ : Fin 128) k) :=
  (read3 (V m c main_v16 : S64.Idx → EReal) t k).trans (V16_at m c k)

theorem blk4_apply (c : Dev nD) (t : Fin cfg0.N) (k : Fin 64) : blk4 m c t (ix1 k) = a7 m c (ix1 k) :=
  (read4 (V m c main_arg7 : S64.Idx → EReal) t k).trans (congrFun (V_main_arg7 m c) (ix1 k))

theorem blk5_apply (c : Dev nD) (t : Fin cfg0.N) (k : Fin 64) : blk5 m c t (ix1 k) = a8 m c (ix1 k) :=
  (read5 (V m c main_arg8 : S64.Idx → EReal) t k).trans (congrFun (V_main_arg8 m c) (ix1 k))

theorem blk6_apply (c : Dev nD) (t : Fin cfg0.N) (q k : Fin 32) : blk6 m c t (ix2 q k) = a9 m c (ix2 q k) :=
  (read6 (V m c main_arg9 : S32x32.Idx → EReal) t q k).trans (congrFun (V_main_arg9 m c) (ix2 q k))

theorem blk7_apply (c : Dev nD) (t : Fin cfg0.N) (k : Fin 32) : blk7 m c t (ix1 k) = a10 m c (ix1 k) :=
  (read7 (V m c main_arg10 : S32.Idx → EReal) t k).trans (congrFun (V_main_arg10 m c) (ix1 k))

theorem blk8_apply (c : Dev nD) (t : Fin cfg0.N) (k : Fin 32) : blk8 m c t (ix1 k) = a11 m c (ix1 k) :=
  (read8 (V m c main_arg11 : S32.Idx → EReal) t k).trans (congrFun (V_main_arg11 m c) (ix1 k))

theorem blk9_apply (c : Dev nD) (t : Fin cfg0.N) (k : Fin 32) : blk9 m c t (ix1 k) = a12 m c (ix1 k) :=
  (read9 (V m c main_arg12 : S32.Idx → EReal) t k).trans (congrFun (V_main_arg12 m c) (ix1 k))

end Cert.KernelIdeal.KValue

end
-- ==== Proof.KernelValue.lean ====
/-
  The kernel's run, with its two result arrays named: `Cert.Spec.outX` and `outY` of the aggregate the launch finds.

  What point `t` stores for the X output at `(p, j)` is the normalized row of the ReLU of the linear part on the point's
  blocks; by the blocks' readings that is the specification at row `5000·t + p`, so the point writes back block `t` of
  the specification. The ten blocks of 5000 rows cover the 50000 rows (row `r` is in block `r / 5000`), so the array ends
  holding the specification everywhere. The Y output likewise.
-/
import proofs.«142566_j70746701299878_1_alg».proof.Proof.Gen.KernelIdeal.Value
import proofs.«142566_j70746701299878_1_alg».proof.Proof.Blocks

noncomputable section

namespace Cert.KernelIdeal.KValue

open Cert.KernelIdeal Cert.KernelIdeal.Gen Cert.KernelIdeal.Value
open Idealize.ShloMosaic Idealize.ShloMosaic.TcCoe Idealize.SL.Sem
open Idealize.ShloMosaic.ValueIdx Cert.RowNorm Cert.Spec
open Idealize.ShloMosaic.Pipeline (Dat)

variable (m : (ℓ : Loc nD τ sig) → Buf (Elt Ideal) ℓ) (ρ : Dev nD → PrngReg)

/-- Rows, scales and shifts that agree entry by entry have the same normalized row. -/
theorem lnRow_congr3 {d : ℕ} (dv eps : EReal) {x y g g' b b' : Fin d → EReal} (hx : ∀ k, x k = y k)
    (hg : ∀ k, g k = g' k) (hb : ∀ k, b k = b' k) (j : Fin d) : lnRow dv eps x g b j = lnRow dv eps y g' b' j := by
  rw [show x = y from funext hx, show g = g' from funext hg, show b = b' from funext hb]

/-! ## The X output -/

/-- The X linear part on point `t`'s blocks is the specification's at row `5000·t + p`: the bias block already holds
    `b_X` plus the `h_t` sum, and the three summands are reordered. -/
theorem linK_blk (c : Dev nD) (t : Fin cfg0.N) (p : Fin 5000) (k : Fin 64) :
    linK (blk0 m c t) (blk2 m c t) (blk3 m c t) (ix2 p k) = linX (arrA m c) (a4 m c) (a5 m c) (a6 m c) (rowOf t p) k := by
  refine (linK_apply _ _ _ p k).trans ?_
  rw [blk3_apply m c t k, fold_bias]
  unfold linX
  refine congrArg₂ (· + ·) (congrArg₂ (· + ·) (Finset.sum_congr rfl fun q _ => ?_) rfl) rfl
  rw [blk0_apply m c t p q, blk2_apply m c t q k]

/-- What point `t` stores for the X output at `(p, j)`. -/
theorem payX_at (c : Dev nD) (t : Fin cfg0.N) (p : Fin 5000) (j : Fin 64) :
    k0_pay2 (F := Ideal) (blk0 m c t) (blk2 m c t) (blk3 m c t) (blk4 m c t) (blk5 m c t) (ix2 p j)
      = outX (arrA m c) (a4 m c) (a5 m c) (a6 m c) (a7 m c) (a8 m c) (ix2 (rowOf t p) j) := by
  refine (congrFun (payX_eq _ _ _ _ _) (ix2 p j)).trans ?_
  refine (normK_apply dv64 epsB _ _ _ _ _ _ _ _ p j).trans ?_
  refine Eq.trans ?_ (outX_apply _ _ _ _ _ _ (rowOf t p) j).symm
  exact lnRow_congr3 _ _ (fun k => congrArg (max · 0) (linK_blk m c t p k)) (fun k => blk4_apply m c t k)
    (fun k => blk5_apply m c t k) j

/-- The X output's buffer after the body holds the one value stored to it. -/
theorem out10_eq (x0 : FVec Ideal S5000x96 .f32) (x1 : FVec Ideal S5000x32 .f32) (x2 : FVec Ideal S96x64 .f32)
    (x3 x4 x5 : FVec Ideal S64 .f32) (x6 : FVec Ideal S32x32 .f32) (x7 x8 x9 : FVec Ideal S32 .f32) :
    out0_10 (F := Ideal) x0 x1 x2 x3 x4 x5 x6 x7 x8 x9 = k0_pay2 (F := Ideal) x0 x2 x3 x4 x5 := by
  unfold out0_10
  rw [View.canon_unit_zero hz2]
  simp only [View.ld_unit_zero (S := S5000x96) hz2, View.ld_unit_zero (S := S96x64) hz2, View.ld_unit_zero (S := S64) hz1]

/-- A [5000, 64] block that agrees, entry `(p, j)`, with an array at `(5000·t + p, j)` is point `t`'s block of that array. -/
theorem cut10_read (P : FVec Ideal S5000x64 .f32) (G : FVec Ideal S50000x64 .f32) (t : Fin cfg0.N)
    (h : ∀ (p : Fin 5000) (j : Fin 64), P (ix2 p j) = G (ix2 (rowOf t p) j)) :
    (cfg0.win 10).cut (grid0.coords t) P = ((cfg0.win 10).blk t).view.read (Elt Ideal) G := by
  obtain ⟨-, -, -, -, e0, e1, -⟩ := idxRows t
  funext y
  have hp : (y 0).val < 5000 := (y 0).isLt
  have hj : (y 1).val < 64 := (y 1).isLt
  have hx : (cfg0.win 10).xinj (grid0.coords t) y = ix2 (⟨(y 0).val, hp⟩ : Fin 5000) (⟨(y 1).val, hj⟩ : Fin 64) :=
    funext fun (a : Fin 2) => by
      match a with
      | ⟨0, _⟩ => rfl
      | ⟨1, _⟩ => rfl
  have he : ((cfg0.win 10).blk t).view.emb y = ix2 (rowOf t ⟨(y 0).val, hp⟩) (⟨(y 1).val, hj⟩ : Fin 64) :=
    funext fun (a : Fin 2) => Fin.ext (by
      match a with
      | ⟨0, _⟩ => show win0_10.index t (0 : Fin 2) * 5000 + 1 * (y 0).val = 5000 * t.val + (y 0).val; omega
      | ⟨1, _⟩ => show win0_10.index t (1 : Fin 2) * 64 + 1 * (y 1).val = (y 1).val; omega)
  show P ((cfg0.win 10).xinj (grid0.coords t) y) = G (((cfg0.win 10).blk t).view.emb y)
  rw [hx, he]
  exact h _ _

/-- Point `t` writes back block `t` of the X specification. -/
theorem flushed10_eq (c : Dev nD) (t : Fin cfg0.N) :
    (dats m 0 c).flushed 10 t
      = ((cfg0.win 10).blk t).view.read (Elt Ideal) (outX (arrA m c) (a4 m c) (a5 m c) (a6 m c) (a7 m c) (a8 m c)) := by
  rw [Value.flushed10, out10_eq]
  exact cut10_read _ _ t (fun p j => payX_at m c t p j)

/-- An index of the X result is in point `t`'s block iff each coordinate is in the block's range on its axis. -/
theorem mem_blk10 (t : Fin cfg0.N) (i : S50000x64.Idx) :
    i ∈ ((cfg0.win 10).blk t).view.set ↔ ∀ a : Fin 2, win0_10.index t a * S5000x64.size a ≤ (i a).val ∧ (i a).val < win0_10.index t a * S5000x64.size a + S5000x64.size a := by
  show i ∈ ((View.whole main_v17_0).slice (win0_10.rect t)).set ↔ _
  rw [View.set_slice_whole, Rect.mem_set_unit]
  exact Iff.rfl

/-- Every index of the X result is in the block of the point its row falls in. -/
theorem cover10 (i : S50000x64.Idx) : ∃ t : Fin cfg0.N, (cfg0.win 10).flush t = true ∧ i ∈ ((cfg0.win 10).blk t).view.set := by
  have hi0 : (i 0).val < 50000 := (i 0).isLt
  have hi1 : (i 1).val < 64 := (i 1).isLt
  have hN : (i 0).val / 5000 < cfg0.N := by show _ < grid0.N; rw [N_0]; omega
  obtain ⟨-, -, -, -, e0, e1, -⟩ := idxRows ⟨(i 0).val / 5000, hN⟩
  refine ⟨⟨(i 0).val / 5000, hN⟩, flush0_10 _, ?_⟩
  rw [mem_blk10]
  intro a
  match a with
  | ⟨0, _⟩ =>
    show win0_10.index ⟨(i 0).val / 5000, hN⟩ (0 : Fin 2) * 5000 ≤ (i 0).val ∧ (i 0).val < win0_10.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_10.index ⟨(i 0).val / 5000, hN⟩ (1 : Fin 2) * 64 ≤ (i 1).val ∧ (i 1).val < win0_10.index ⟨(i 0).val / 5000, hN⟩ (1 : Fin 2) * 64 + 64
    rw [e1]; omega

/-- The X result array after the run. -/
theorem final10 (c : Dev nD) :
    (dats m 0 c).arrAt 10 cfg0.N = outX (arrA m c) (a4 m c) (a5 m c) (a6 m c) (a7 m c) (a8 m c) :=
  (dats m 0 c).arrAt_eq_of_cover 10 _ (fun t _ => flushed10_eq m c t) cover10

/-! ## The Y output -/

/-- The Y linear part on point `t`'s blocks is the specification's at row `5000·t + p`. -/
theorem linKY_blk (c : Dev nD) (t : Fin cfg0.N) (p : Fin 5000) (k : Fin 32) :
    linKY (blk1 m c t) (blk6 m c t) (blk7 m c t) (ix2 p k) = linY (arrA m c) (a9 m c) (a10 m c) (rowOf t p) k := by
  refine (linKY_apply _ _ _ p k).trans ?_
  unfold linY
  refine congrArg₂ (· + ·) (Finset.sum_congr rfl fun q _ => ?_) (blk7_apply m c t k)
  rw [blk1_apply m c t p q, blk6_apply m c t q k]

/-- What point `t` stores for the Y output at `(p, j)`. -/
theorem payY_at (c : Dev nD) (t : Fin cfg0.N) (p : Fin 5000) (j : Fin 32) :
    k0_pay1 (F := Ideal) (blk1 m c t) (blk6 m c t) (blk7 m c t) (blk8 m c t) (blk9 m c t) (ix2 p j)
      = outY (arrA m c) (a9 m c) (a10 m c) (a11 m c) (a12 m c) (ix2 (rowOf t p) j) := by
  refine (congrFun (payY_eq _ _ _ _ _) (ix2 p j)).trans ?_
  refine (normK_apply dv32 epsB _ _ _ _ _ _ _ _ p j).trans ?_
  refine Eq.trans ?_ (outY_apply _ _ _ _ _ (rowOf t p) j).symm
  exact lnRow_congr3 _ _ (fun k => congrArg (max · 0) (linKY_blk m c t p k)) (fun k => blk8_apply m c t k)
    (fun k => blk9_apply m c t k) j

/-- The Y output's buffer after the body holds the one value stored to it. -/
theorem out11_eq (x0 : FVec Ideal S5000x96 .f32) (x1 : FVec Ideal S5000x32 .f32) (x2 : FVec Ideal S96x64 .f32)
    (x3 x4 x5 : FVec Ideal S64 .f32) (x6 : FVec Ideal S32x32 .f32) (x7 x8 x9 : FVec Ideal S32 .f32) :
    out0_11 (F := Ideal) x0 x1 x2 x3 x4 x5 x6 x7 x8 x9 = k0_pay1 (F := Ideal) x1 x6 x7 x8 x9 := by
  unfold out0_11
  rw [View.canon_unit_zero hz2]
  simp only [View.ld_unit_zero (S := S5000x32) hz2, View.ld_unit_zero (S := S32x32) hz2, View.ld_unit_zero (S := S32) hz1]

/-- A [5000, 32] block that agrees, entry `(p, j)`, with an array at `(5000·t + p, j)` is point `t`'s block of that array. -/
theorem cut11_read (P : FVec Ideal S5000x32 .f32) (G : FVec Ideal S50000x32 .f32) (t : Fin cfg0.N)
    (h : ∀ (p : Fin 5000) (j : Fin 32), P (ix2 p j) = G (ix2 (rowOf t p) j)) :
    (cfg0.win 11).cut (grid0.coords t) P = ((cfg0.win 11).blk t).view.read (Elt Ideal) G := by
  obtain ⟨-, -, -, -, -, -, e0, e1⟩ := idxRows t
  funext y
  have hp : (y 0).val < 5000 := (y 0).isLt
  have hj : (y 1).val < 32 := (y 1).isLt
  have hx : (cfg0.win 11).xinj (grid0.coords t) y = ix2 (⟨(y 0).val, hp⟩ : Fin 5000) (⟨(y 1).val, hj⟩ : Fin 32) :=
    funext fun (a : Fin 2) => by
      match a with
      | ⟨0, _⟩ => rfl
      | ⟨1, _⟩ => rfl
  have he : ((cfg0.win 11).blk t).view.emb y = ix2 (rowOf t ⟨(y 0).val, hp⟩) (⟨(y 1).val, hj⟩ : Fin 32) :=
    funext fun (a : Fin 2) => Fin.ext (by
      match a with
      | ⟨0, _⟩ => show win0_11.index t (0 : Fin 2) * 5000 + 1 * (y 0).val = 5000 * t.val + (y 0).val; omega
      | ⟨1, _⟩ => show win0_11.index t (1 : Fin 2) * 32 + 1 * (y 1).val = (y 1).val; omega)
  show P ((cfg0.win 11).xinj (grid0.coords t) y) = G (((cfg0.win 11).blk t).view.emb y)
  rw [hx, he]
  exact h _ _

/-- Point `t` writes back block `t` of the Y specification. -/
theorem flushed11_eq (c : Dev nD) (t : Fin cfg0.N) :
    (dats m 0 c).flushed 11 t
      = ((cfg0.win 11).blk t).view.read (Elt Ideal) (outY (arrA m c) (a9 m c) (a10 m c) (a11 m c) (a12 m c)) := by
  rw [Value.flushed11, out11_eq]
  exact cut11_read _ _ t (fun p j => payY_at m c t p j)

/-- An index of the Y result is in point `t`'s block iff each coordinate is in the block's range on its axis. -/
theorem mem_blk11 (t : Fin cfg0.N) (i : S50000x32.Idx) :
    i ∈ ((cfg0.win 11).blk t).view.set ↔ ∀ a : Fin 2, win0_11.index t a * S5000x32.size a ≤ (i a).val ∧ (i a).val < win0_11.index t a * S5000x32.size a + S5000x32.size a := by
  show i ∈ ((View.whole main_v17_1).slice (win0_11.rect t)).set ↔ _
  rw [View.set_slice_whole, Rect.mem_set_unit]
  exact Iff.rfl

/-- Every index of the Y result is in the block of the point its row falls in. -/
theorem cover11 (i : S50000x32.Idx) : ∃ t : Fin cfg0.N, (cfg0.win 11).flush t = true ∧ i ∈ ((cfg0.win 11).blk t).view.set := by
  have hi0 : (i 0).val < 50000 := (i 0).isLt
  have hi1 : (i 1).val < 32 := (i 1).isLt
  have hN : (i 0).val / 5000 < cfg0.N := by show _ < grid0.N; rw [N_0]; omega
  obtain ⟨-, -, -, -, -, -, e0, e1⟩ := idxRows ⟨(i 0).val / 5000, hN⟩
  refine ⟨⟨(i 0).val / 5000, hN⟩, flush0_11 _, ?_⟩
  rw [mem_blk11]
  intro a
  match a with
  | ⟨0, _⟩ =>
    show win0_11.index ⟨(i 0).val / 5000, hN⟩ (0 : Fin 2) * 5000 ≤ (i 0).val ∧ (i 0).val < win0_11.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_11.index ⟨(i 0).val / 5000, hN⟩ (1 : Fin 2) * 32 ≤ (i 1).val ∧ (i 1).val < win0_11.index ⟨(i 0).val / 5000, hN⟩ (1 : Fin 2) * 32 + 32
    rw [e1]; omega

/-- The Y result array after the run. -/
theorem final11 (c : Dev nD) :
    (dats m 0 c).arrAt 11 cfg0.N = outY (arrA m c) (a9 m c) (a10 m c) (a11 m c) (a12 m c) :=
  (dats m 0 c).arrAt_eq_of_cover 11 _ (fun t _ => flushed11_eq m c t) cover11

/-! ## The run -/

/-- Every weakly fair execution of the kernel's @main terminates with the two results at the specification of the
    aggregate the launch finds, the arguments unchanged. -/
theorem run : θ_run defs (onTc (τ := τ) (main (F := Ideal))) ⟨m, fun _ => 0, ρ⟩ fun r => ∀ c : Dev nD,
      r.2.mem ((c : Thread nD τ).loc main_v17_0) = outX (arrA m c) (a4 m c) (a5 m c) (a6 m c) (a7 m c) (a8 m c)
      ∧ r.2.mem ((c : Thread nD τ).loc main_v17_1) = outY (arrA m c) (a9 m c) (a10 m c) (a11 m c) (a12 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final10 m c), (h c).2.1.trans (final11 m c), (h c).2.2⟩)
    (Value.run_blocks m ρ)

end Cert.KernelIdeal.KValue

end
-- ==== Proof.RefSide.lean ====
/-
  The reference's two results are the layer's specification (`Cert.Spec.outX`, `outY`) of its own aggregate.

  X: the reference concatenates the broadcast row `h_t` to the aggregate and takes ONE product with the 128 × 64 weight;
  at `(n, j)` that is a sum over 128 indices, the first 96 reading the aggregate, the last 32 reading `h_t`: the split
  sum of `Cert.Spec.linX`. Y: the product of the aggregate's last 32 columns with the 32 × 32 weight. After the linear
  part both branches are the host spelling of the row normalization (`Cert.RowNorm.normH`).
-/
import proofs.«142566_j70746701299878_1_alg».proof.Proof.Gen.ReferenceIdeal.Read
import proofs.«142566_j70746701299878_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.RowNorm Cert.Spec

/-! ### The index maps of the two products and of the broadcasts, at an index given by its coordinates -/

/-- The X product reads the weight at row `q`, column `k`. -/
theorem ridx14_eq (n : Fin 50000) (k : Fin 64) (q : Fin 128) : ridx_main_v14 (ix2 n k) q = ix2 q k := by
  funext a
  match a with
  | ⟨0, _⟩ => rfl
  | ⟨1, _⟩ => rfl

/-- The broadcast of the row `h_t` down the 50000 rows reads it at row `0`. -/
theorem idx12_eq (n : Fin 50000) (q : Fin 32) : idx_main_v12 (ix2 n q) = ix2 (0 : Fin 1) q := by
  funext a
  match a with
  | ⟨0, _⟩ => rfl
  | ⟨1, _⟩ => rfl

/-- The X bias, laid as one row and broadcast down the rows, read at `(n, k)`, is its entry `k`. -/
theorem v16_at (x6 : (⟨S64, .f32⟩ : BufTy).Contents (Elt Ideal)) (n : Fin 50000) (k : Fin 64) :
    val_main_v16 (F := Ideal) x6 (ix2 n k) = x6 (ix1 k) := by
  refine (val_main_v16_apply x6 (ix2 n k)).trans ((val_main_v15_apply x6 _).trans (congrArg x6 ?_))
  funext a
  match a with
  | ⟨0, _⟩ => rfl

/-- The concatenation of the aggregate and the broadcast `h_t`, at a column below 96, is the aggregate there. -/
theorem v13_left (x0 x1 : (⟨S800000, .i32⟩ : BufTy).Contents (Elt Ideal)) (x2 : (⟨S50000x64, .f32⟩ : BufTy).Contents (Elt Ideal))
    (x3 : (⟨S50000x32, .f32⟩ : BufTy).Contents (Elt Ideal)) (x4 : (⟨S1x32, .f32⟩ : BufTy).Contents (Elt Ideal))
    (n : Fin 50000) (k : Fin 64) (q : Fin 96) (hq : q.val < 128) :
    val_main_v13 (F := Ideal) x0 x1 x2 x3 x4 (lidx_main_v14 (ix2 n k) ⟨q.val, hq⟩)
      = val_main_v10 (F := Ideal) x0 x1 x2 x3 (ix2 n q) := by
  unfold val_main_v13
  exact concatenate_pair_apply_left 1 _ _ concatenates_S50000x96_S50000x32_S50000x128_d1 _ rfl (ix2 n q) (fun b => by
    match b with
    | ⟨0, _⟩ => rfl
    | ⟨1, _⟩ => rfl)

/-- At column `96 + q` it is `h_t` at `(0, q)`. -/
theorem v13_right (x0 x1 : (⟨S800000, .i32⟩ : BufTy).Contents (Elt Ideal)) (x2 : (⟨S50000x64, .f32⟩ : BufTy).Contents (Elt Ideal))
    (x3 : (⟨S50000x32, .f32⟩ : BufTy).Contents (Elt Ideal)) (x4 : (⟨S1x32, .f32⟩ : BufTy).Contents (Elt Ideal))
    (n : Fin 50000) (k : Fin 64) (q : Fin 32) (hq : 96 + q.val < 128) :
    val_main_v13 (F := Ideal) x0 x1 x2 x3 x4 (lidx_main_v14 (ix2 n k) ⟨96 + q.val, hq⟩)
      = x4 (ix2 (0 : Fin 1) q) := by
  unfold val_main_v13
  refine (concatenate_pair_apply_right 1 _ _ concatenates_S50000x96_S50000x32_S50000x128_d1 _ rfl rfl (ix2 n q)
    (fun b hb => by
      match b with
      | ⟨0, _⟩ => rfl
      | ⟨1, _⟩ => exact absurd rfl hb)
    (by show q.val + 96 = 96 + q.val; omega)).trans ?_
  exact (val_main_v12_apply x4 (ix2 n q)).trans (congrArg x4 (idx12_eq n q))

/-- The X branch before the ReLU, entry `(n, k)`: the 128-term sum splits into the aggregate's 96 terms and `h_t`'s 32. -/
theorem v17_at (x0 x1 : (⟨S800000, .i32⟩ : BufTy).Contents (Elt Ideal)) (x2 : (⟨S50000x64, .f32⟩ : BufTy).Contents (Elt Ideal))
    (x3 : (⟨S50000x32, .f32⟩ : BufTy).Contents (Elt Ideal)) (x4 : (⟨S1x32, .f32⟩ : BufTy).Contents (Elt Ideal))
    (x5 : (⟨S128x64, .f32⟩ : BufTy).Contents (Elt Ideal)) (x6 : (⟨S64, .f32⟩ : BufTy).Contents (Elt Ideal))
    (n : Fin 50000) (k : Fin 64) :
    val_main_v17 (F := Ideal) x0 x1 x2 x3 x4 x5 x6 (ix2 n k)
      = linX (val_main_v10 (F := Ideal) x0 x1 x2 x3) x4 x5 x6 n k := by
  refine (val_main_v17_apply x0 x1 x2 x3 x4 x5 x6 (ix2 n k)).trans ?_
  show val_main_v14 (F := Ideal) x0 x1 x2 x3 x4 x5 (ix2 n k) + val_main_v16 (F := Ideal) x6 (ix2 n k) = _
  rw [val_main_v14_apply, Cert.Spec.sum_split, v16_at]
  unfold linX
  refine congrArg₂ (· + ·) (congrArg₂ (· + ·) (Finset.sum_congr rfl fun q _ => ?_) (Finset.sum_congr rfl fun q _ => ?_)) rfl
  · exact congrArg₂ (· * ·) (v13_left x0 x1 x2 x3 x4 n k q _) (congrArg x5 (ridx14_eq n k _))
  · exact congrArg₂ (· * ·) (v13_right x0 x1 x2 x3 x4 n k q _) (congrArg x5 (ridx14_eq n k _))

/-- The X branch after its linear part is the host spelling of the row normalization of that linear part. -/
theorem v42_eq_normH (x0 x1 : (⟨S800000, .i32⟩ : BufTy).Contents (Elt Ideal)) (x2 : (⟨S50000x64, .f32⟩ : BufTy).Contents (Elt Ideal))
    (x3 : (⟨S50000x32, .f32⟩ : BufTy).Contents (Elt Ideal)) (x4 : (⟨S1x32, .f32⟩ : BufTy).Contents (Elt Ideal))
    (x5 : (⟨S128x64, .f32⟩ : BufTy).Contents (Elt Ideal)) (x6 x7 x8 : (⟨S64, .f32⟩ : BufTy).Contents (Elt Ideal)) :
    val_main_v42 (F := Ideal) x0 x1 x2 x3 x4 x5 x6 x7 x8
      = normH dv64 epsB bcast_S_S50000x64 reducesTo_S50000x64_S50000_d1 h_S_ bcast_S50000_S50000x1_0 bcast_S_S50000x1
          bcast_S50000x1_S50000x64_0_1 bcast_S64_S1x64_1 bcast_S1x64_S50000x64_0_1
          (val_main_v17 (F := Ideal) x0 x1 x2 x3 x4 x5 x6) x7 x8 := rfl

/-- The reference's first result is `outX` of its aggregate and the X parameters. -/
theorem out0_eq (x0 x1 : (⟨S800000, .i32⟩ : BufTy).Contents (Elt Ideal)) (x2 : (⟨S50000x64, .f32⟩ : BufTy).Contents (Elt Ideal))
    (x3 : (⟨S50000x32, .f32⟩ : BufTy).Contents (Elt Ideal)) (x4 : (⟨S1x32, .f32⟩ : BufTy).Contents (Elt Ideal))
    (x5 : (⟨S128x64, .f32⟩ : BufTy).Contents (Elt Ideal)) (x6 x7 x8 : (⟨S64, .f32⟩ : BufTy).Contents (Elt Ideal)) :
    val_main_v42 (F := Ideal) x0 x1 x2 x3 x4 x5 x6 x7 x8
      = outX (val_main_v10 (F := Ideal) x0 x1 x2 x3) x4 x5 x6 x7 x8 := by
  funext i
  obtain ⟨n, j, rfl⟩ : ∃ (n : Fin 50000) (j : Fin 64), i = ix2 n j := ⟨i 0, i 1, eq_ix2 i⟩
  rw [v42_eq_normH, normH_apply, outX_apply]
  exact lnRow_congr _ _ (fun k => congrArg (max · 0) (v17_at x0 x1 x2 x3 x4 x5 x6 n k)) _ _ _

/-! ### The Y branch -/

/-- The Y product reads the weight at row `q`, column `k`. -/
theorem ridx43_eq (n : Fin 50000) (k : Fin 32) (q : Fin 32) : ridx_main_v43 (ix2 n k) q = ix2 q k := by
  funext a
  match a with
  | ⟨0, _⟩ => rfl
  | ⟨1, _⟩ => rfl

/-- Its left operand, the slice of the aggregate's columns 64 to 95, at `(n, q)` is the aggregate at `(n, 64 + q)`. -/
theorem v11_at (x0 x1 : (⟨S800000, .i32⟩ : BufTy).Contents (Elt Ideal)) (x2 : (⟨S50000x64, .f32⟩ : BufTy).Contents (Elt Ideal))
    (x3 : (⟨S50000x32, .f32⟩ : BufTy).Contents (Elt Ideal)) (n : Fin 50000) (k : Fin 32) (q : Fin 32) (hq : 64 + q.val < 96) :
    val_main_v11 (F := Ideal) x0 x1 x2 x3 (lidx_main_v43 (ix2 n k) q)
      = val_main_v10 (F := Ideal) x0 x1 x2 x3 (ix2 n (⟨64 + q.val, hq⟩ : Fin 96)) := by
  refine (val_main_v11_apply x0 x1 x2 x3 _).trans (congrArg (val_main_v10 (F := Ideal) x0 x1 x2 x3) ?_)
  funext a
  match a with
  | ⟨0, _⟩ => rfl
  | ⟨1, _⟩ => rfl

/-- The Y bias, laid as one row and broadcast down the rows, read at `(n, k)`, is its entry `k`. -/
theorem v45_at (x10 : (⟨S32, .f32⟩ : BufTy).Contents (Elt Ideal)) (n : Fin 50000) (k : Fin 32) :
    val_main_v45 (F := Ideal) x10 (ix2 n k) = x10 (ix1 k) := by
  refine (val_main_v45_apply x10 (ix2 n k)).trans ((val_main_v44_apply x10 _).trans (congrArg x10 ?_))
  funext a
  match a with
  | ⟨0, _⟩ => rfl

/-- The Y branch before the ReLU, entry `(n, k)`. -/
theorem v46_at (x0 x1 : (⟨S800000, .i32⟩ : BufTy).Contents (Elt Ideal)) (x2 : (⟨S50000x64, .f32⟩ : BufTy).Contents (Elt Ideal))
    (x3 : (⟨S50000x32, .f32⟩ : BufTy).Contents (Elt Ideal)) (x9 : (⟨S32x32, .f32⟩ : BufTy).Contents (Elt Ideal))
    (x10 : (⟨S32, .f32⟩ : BufTy).Contents (Elt Ideal)) (n : Fin 50000) (k : Fin 32) :
    val_main_v46 (F := Ideal) x0 x1 x2 x3 x9 x10 (ix2 n k)
      = linY (val_main_v10 (F := Ideal) x0 x1 x2 x3) x9 x10 n k := by
  refine (val_main_v46_apply x0 x1 x2 x3 x9 x10 (ix2 n k)).trans ?_
  show val_main_v43 (F := Ideal) x0 x1 x2 x3 x9 (ix2 n k) + val_main_v45 (F := Ideal) x10 (ix2 n k) = _
  rw [val_main_v43_apply, v45_at]
  unfold linY
  refine congrArg₂ (· + ·) (Finset.sum_congr rfl fun q _ => ?_) rfl
  exact congrArg₂ (· * ·) (v11_at x0 x1 x2 x3 n k q _) (congrArg x9 (ridx43_eq n k q))

/-- The Y branch after its linear part is the host spelling of the row normalization of that linear part. -/
theorem v71_eq_normH (x0 x1 : (⟨S800000, .i32⟩ : BufTy).Contents (Elt Ideal)) (x2 : (⟨S50000x64, .f32⟩ : BufTy).Contents (Elt Ideal))
    (x3 : (⟨S50000x32, .f32⟩ : BufTy).Contents (Elt Ideal)) (x9 : (⟨S32x32, .f32⟩ : BufTy).Contents (Elt Ideal))
    (x10 x11 x12 : (⟨S32, .f32⟩ : BufTy).Contents (Elt Ideal)) :
    val_main_v71 (F := Ideal) x0 x1 x2 x3 x9 x10 x11 x12
      = normH dv32 epsB bcast_S_S50000x32 reducesTo_S50000x32_S50000_d1 h_S_ bcast_S50000_S50000x1_0 bcast_S_S50000x1
          bcast_S50000x1_S50000x32_0_1 bcast_S32_S1x32_1 bcast_S1x32_S50000x32_0_1
          (val_main_v46 (F := Ideal) x0 x1 x2 x3 x9 x10) x11 x12 := rfl

/-- The reference's second result is `outY` of its aggregate and the Y parameters. -/
theorem out1_eq (x0 x1 : (⟨S800000, .i32⟩ : BufTy).Contents (Elt Ideal)) (x2 : (⟨S50000x64, .f32⟩ : BufTy).Contents (Elt Ideal))
    (x3 : (⟨S50000x32, .f32⟩ : BufTy).Contents (Elt Ideal)) (x9 : (⟨S32x32, .f32⟩ : BufTy).Contents (Elt Ideal))
    (x10 x11 x12 : (⟨S32, .f32⟩ : BufTy).Contents (Elt Ideal)) :
    val_main_v71 (F := Ideal) x0 x1 x2 x3 x9 x10 x11 x12
      = outY (val_main_v10 (F := Ideal) x0 x1 x2 x3) x9 x10 x11 x12 := by
  funext i
  obtain ⟨n, j, rfl⟩ : ∃ (n : Fin 50000) (j : Fin 32), i = ix2 n j := ⟨i 0, i 1, eq_ix2 i⟩
  rw [v71_eq_normH, normH_apply, outY_apply]
  exact lnRow_congr _ _ (fun k => congrArg (max · 0) (v46_at x0 x1 x2 x3 x9 x10 n k)) _ _ _

end Cert.ReferenceIdeal.RefValue

end
-- ==== Proof.lean ====
/-
  The certificate of a graph layer's fused update kernel against its jnp reference, over the extended reals.

  Both programs aggregate the rows of `[h_X | h_Y]` over the edges by the same gather and scatter-add, then apply, per
  branch, a linear map, ReLU and a LayerNorm over the row. The kernel blocks the 50000 rows into ten blocks of 5000 and,
  for the X branch, folds the contribution `h_t · W_X[96:128]` of the broadcast row `h_t` into the bias before the launch;
  the reference concatenates `h_t` to every row and takes one product with the whole 128 × 64 weight. Entry by entry
  both are `Cert.Spec.outX` / `outY` of the aggregate: a sum over 128 indices is the sum over its first 96 plus the sum
  over its last 32, and addition of extended reals is commutative and associative, so the precondition that the inputs be
  finite is not used. The aggregate itself is one function of the four arrays it reads in either program's text.
  The three frames: the kernels' are the generated frame certificates; the reference's is its generated run with the
  results dropped. The ideal pass rewrote nothing, so there is nothing to preserve.
-/
import proofs.«142566_j70746701299878_1_alg».proof.Defs
import proofs.«142566_j70746701299878_1_alg».proof.Proof.Gen.Kernel
import proofs.«142566_j70746701299878_1_alg».proof.Proof.Gen.Kernel.Skeleton
import proofs.«142566_j70746701299878_1_alg».proof.Proof.Gen.Kernel.Launch
import proofs.«142566_j70746701299878_1_alg».proof.Proof.Gen.Kernel.Points
import proofs.«142566_j70746701299878_1_alg».proof.Proof.Gen.Kernel.Frame
import proofs.«142566_j70746701299878_1_alg».proof.Proof.Gen.KernelIdeal
import proofs.«142566_j70746701299878_1_alg».proof.Proof.Gen.KernelIdeal.Skeleton
import proofs.«142566_j70746701299878_1_alg».proof.Proof.Gen.KernelIdeal.Launch
import proofs.«142566_j70746701299878_1_alg».proof.Proof.Gen.KernelIdeal.Points
import proofs.«142566_j70746701299878_1_alg».proof.Proof.Gen.KernelIdeal.Frame
import proofs.«142566_j70746701299878_1_alg».proof.Proof.Gen.ReferenceIdeal
import proofs.«142566_j70746701299878_1_alg».proof.Proof.Gen.Pre_finite_inputs
import proofs.«142566_j70746701299878_1_alg».proof.Proof.Gen.KernelIdeal.Value
import proofs.«142566_j70746701299878_1_alg».proof.Proof.Gen.ReferenceIdeal.Run
import proofs.«142566_j70746701299878_1_alg».proof.Proof.Gen.ReferenceIdeal.Read
import proofs.«142566_j70746701299878_1_alg».proof.Proof.KernelValue
import proofs.«142566_j70746701299878_1_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx Cert.Spec

/-- The aggregate is the same function of the four arrays it reads in the kernel's text and in the reference's: the
    same operations over shape records that differ only in their proofs. -/
theorem aggr_same (x0 x1 : (⟨Cert.KernelIdeal.S800000, .i32⟩ : BufTy).Contents (Elt Ideal))
    (x2 : (⟨Cert.KernelIdeal.S50000x64, .f32⟩ : BufTy).Contents (Elt Ideal))
    (x3 : (⟨Cert.KernelIdeal.S50000x32, .f32⟩ : BufTy).Contents (Elt Ideal)) :
    Cert.KernelIdeal.KValue.aggrK x0 x1 x2 x3 = Cert.ReferenceIdeal.Read.val_main_v10 (F := Ideal) x0 x1 x2 x3 := rfl

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the thirteen arguments, both programs end with the two results at `outX` and `outY` of
    the one aggregate. -/
theorem algebraic : Cert.algebraic_KernelIdeal_ReferenceIdeal := by
  intro m ρ m' ρ' _ hagree
  refine ⟨_, _, Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, -⟩ := hagree c
    rw [Cert.ReferenceIdeal.Read.val_main_v42_eq, Cert.ReferenceIdeal.RefValue.out0_eq, h0, h1, h2, h3, h4, h5, h6, h7, h8,
      Cert.KernelIdeal.KValue.arrA_eq, aggr_same]
  · obtain ⟨h0, h1, h2, h3, -, -, -, -, -, h9, h10, h11, h12⟩ := hagree c
    rw [Cert.ReferenceIdeal.Read.val_main_v71_eq, Cert.ReferenceIdeal.RefValue.out1_eq, h0, h1, h2, h3, h9, h10, h11, h12,
      Cert.KernelIdeal.KValue.arrA_eq, aggr_same]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
